-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v160)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S_ : Shape := ⟨0, ![]⟩
abbrev S1x500000 : Shape := ⟨2, ![1, 500000]⟩
abbrev S500000 : Shape := ⟨1, ![500000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part2 {F : FTy → Type} [FloatOps F] (main_arg3 : IVec S2x500000 32) (main_v28 : IVec S_ 1) (main_v32 : IVec S500000 1) (main_v34 : IVec S500000 32) : IVec S_ 1 :=
  let main_c_11 : IVec S_ 32 := constantI S_ 32 100000#32
  let main_v35 : IVec S500000 32 := broadcastInDim S500000 ![] bcast_S_S500000 main_c_11
  let main_v36 : IVec S500000 1 := cmpi .slt main_v34 main_v35
  let main_v37 : IVec S500000 1 := andi main_v32 main_v36
  let main_c_12 : IVec S_ 1 := constantI S_ 1 1#1
  let main_v38 : IVec S_ 1 := (fun x v => Host.reduce IntOp.andi x v reducesTo_S500000_S_d0 h_S_) main_v37 main_c_12
  let main_v39 : IVec S_ 1 := andi main_v28 main_v38
  let main_v40 : IVec S1x500000 32 := (extractStridedSlice S1x500000 ![0, 0] · slices_S2x500000_S1x500000_0_0) main_arg3
  let main_v41 : IVec S500000 32 := shapeCast S500000 main_v40 shapeCasts_S1x500000_S500000
  let main_c_13 : IVec S_ 32 := constantI S_ 32 4294867296#32
  let main_v42 : IVec S500000 32 := broadcastInDim S500000 ![] bcast_S_S500000 main_c_13
  let main_v43 : IVec S500000 1 := cmpi .sge main_v41 main_v42
  let main_v44 : IVec S1x500000 32 := (extractStridedSlice S1x500000 ![0, 0] · slices_S2x500000_S1x500000_0_0) main_arg3
  let main_v45 : IVec S500000 32 := shapeCast S500000 main_v44 shapeCasts_S1x500000_S500000
  let main_c_14 : IVec S_ 32 := constantI S_ 32 100000#32
  let main_v46 : IVec S500000 32 := broadcastInDim S500000 ![] bcast_S_S500000 main_c_14
  let main_v47 : IVec S500000 1 := cmpi .slt main_v45 main_v46
  let main_v48 : IVec S500000 1 := andi main_v43 main_v47
  let main_c_15 : IVec S_ 1 := constantI S_ 1 1#1
  let main_v49 : IVec S_ 1 := (fun x v => Host.reduce IntOp.andi x v reducesTo_S500000_S_d0 h_S_) main_v48 main_c_15
  let main_v50 : IVec S_ 1 := andi main_v39 main_v49
  main_v50

def fn_part1 {F : FTy → Type} [FloatOps F] (main_arg2 : IVec S2x500000 32) (main_arg3 : IVec S2x500000 32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x500000 32 := (extractStridedSlice S1x500000 ![0, 0] · slices_S2x500000_S1x500000_0_0) main_arg2
  let main_v30 : IVec S500000 32 := shapeCast S500000 main_v29 shapeCasts_S1x500000_S500000
  let main_c_10 : IVec S_ 32 := constantI S_ 32 4294867296#32
  let main_v31 : IVec S500000 32 := broadcastInDim S500000 ![] bcast_S_S500000 main_c_10
  let main_v32 : IVec S500000 1 := cmpi .sge main_v30 main_v31
  let main_v33 : IVec S1x500000 32 := (extractStridedSlice S1x500000 ![0, 0] · slices_S2x500000_S1x500000_0_0) main_arg2
  let main_v34 : IVec S500000 32 := shapeCast S500000 main_v33 shapeCasts_S1x500000_S500000
  fn_part2 (F := F) main_arg3 main_v28 main_v32 main_v34

def fn {F : FTy → Type} [FloatOps F] (main_arg0 : FVec F S100000x128 .f32) (main_arg1 : FVec F S100000x128 .f32) (main_arg2 : IVec S2x500000 32) (main_arg3 : IVec S2x500000 32) (main_arg4 : FVec F S128x128 .f32) (main_arg5 : FVec F S128x128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg6 main_arg7 main_v13 main_v16
-- ==== Kernel.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S5000x128 : Shape := ⟨2, ![5000, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 368
  | .vmem => 30
  | .smem => 0
  | _ => 0

abbrev hbmTy0_0 (i : Nat) : BufTy := match i % 128 with
  | 0 => ⟨S100000x128, .f32⟩
  | 1 => ⟨S100000x128, .f32⟩
  | 2 => ⟨S2x500000, .i32⟩
  | 3 => ⟨S2x500000, .i32⟩
  | 4 => ⟨S128x128, .f32⟩
  | 5 => ⟨S128x128, .f32⟩
  | 6 => ⟨S128, .f32⟩
  | 7 => ⟨S128, .f32⟩
  | 8 => ⟨S100000x128, .f32⟩
  | 9 => ⟨S1x500000, .i32⟩
  | 10 => ⟨S500000, .i32⟩
  | 11 => ⟨S1x500000, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S1, .i32⟩
  | 22 => ⟨S_, .i32⟩
  | 23 => ⟨S500000x1, .i32⟩
  | 24 => ⟨S500000x1, .i1⟩
  | 25 => ⟨S1x1, .i32⟩
  | 26 => ⟨S500000x1, .i32⟩
  | 27 => ⟨S500000x1, .i1⟩
  | 28 => ⟨S500000x1, .i1⟩
  | 29 => ⟨S_, .i1⟩
  | 30 => ⟨S500000, .i1⟩
  | 31 => ⟨S500000x128, .f32⟩
  | 32 => ⟨S500000x128, .i1⟩
  | 33 => ⟨S_, .f32⟩
  | 34 => ⟨S500000x128, .f32⟩
  | 35 => ⟨S500000x128, .f32⟩
  | 36 => ⟨S_, .f32⟩
  | 37 => ⟨S100000x128, .f32⟩
  | 38 => ⟨S500000x1, .i32⟩
  | 39 => ⟨S100000x128, .f32⟩
  | 40 => ⟨S_, .f32⟩
  | 41 => ⟨S500000, .f32⟩
  | 42 => ⟨S_, .f32⟩
  | 43 => ⟨S100000, .f32⟩
  | 44 => ⟨S500000x1, .i32⟩
  | 45 => ⟨S100000, .f32⟩
  | 46 => ⟨S_, .f32⟩
  | 47 => ⟨S100000, .f32⟩
  | 48 => ⟨S100000, .i1⟩
  | 49 => ⟨S100000x1, .i1⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S_, .f32⟩
  | 57 => ⟨S_, .f32⟩
  | 58 => ⟨S100000x128, .i1⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S1x500000, .i32⟩
  | 69 => ⟨S500000, .i32⟩
  | 70 => ⟨S1x500000, .i32⟩
  | 71 => ⟨S500000, .i32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S1, .i32⟩
  | 81 => ⟨S_, .i32⟩
  | 82 => ⟨S500000x1, .i32⟩
  | 83 => ⟨S500000x1, .i1⟩
  | 84 => ⟨S1x1, .i32⟩
  | 85 => ⟨S500000x1, .i32⟩
  | 86 => ⟨S500000x1, .i1⟩
  | 87 => ⟨S500000x1, .i1⟩
  | 88 => ⟨S_, .i1⟩
  | 89 => ⟨S500000, .i1⟩
  | 90 => ⟨S500000x128, .f32⟩
  | 91 => ⟨S500000x128, .i1⟩
  | 92 => ⟨S_, .f32⟩
  | 93 => ⟨S500000x128, .f32⟩
  | 94 => ⟨S500000x128, .f32⟩
  | 95 => ⟨S_, .f32⟩
  | 96 => ⟨S100000x128, .f32⟩
  | 97 => ⟨S500000x1, .i32⟩
  | 98 => ⟨S100000x128, .f32⟩
  | 99 => ⟨S_, .f32⟩
  | 100 => ⟨S500000, .f32⟩
  | 101 => ⟨S_, .f32⟩
  | 102 => ⟨S100000, .f32⟩
  | 103 => ⟨S500000x1, .i32⟩
  | 104 => ⟨S100000, .f32⟩
  | 105 => ⟨S_, .f32⟩
  | 106 => ⟨S100000, .f32⟩
  | 107 => ⟨S100000, .i1⟩
  | 108 => ⟨S100000x1, .i1⟩
  | 109 => ⟨S_, .f32⟩
  | 110 => ⟨S100000, .f32⟩
  | 111 => ⟨S100000, .f32⟩
  | 112 => ⟨S100000x1, .f32⟩
  | 113 => ⟨S100000x128, .f32⟩
  | 114 => ⟨S100000x128, .f32⟩
  | 115 => ⟨S_, .f32⟩
  | 116 => ⟨S_, .f32⟩
  | 117 => ⟨S100000x128, .i1⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x500000, .i32⟩
  | 2 => ⟨S500000, .i32⟩
  | 3 => ⟨S1x500000, .i32⟩
  | 4 => ⟨S500000, .i32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S1, .i32⟩
  | 14 => ⟨S_, .i32⟩
  | 15 => ⟨S500000x1, .i32⟩
  | 16 => ⟨S500000x1, .i1⟩
  | 17 => ⟨S1x1, .i32⟩
  | 18 => ⟨S500000x1, .i32⟩
  | 19 => ⟨S500000x1, .i1⟩
  | 20 => ⟨S500000x1, .i1⟩
  | 21 => ⟨S_, .i1⟩
  | 22 => ⟨S500000, .i1⟩
  | 23 => ⟨S500000x128, .f32⟩
  | 24 => ⟨S500000x128, .i1⟩
  | 25 => ⟨S_, .f32⟩
  | 26 => ⟨S500000x128, .f32⟩
  | 27 => ⟨S500000x128, .f32⟩
  | 28 => ⟨S_, .f32⟩
  | 29 => ⟨S100000x128, .f32⟩
  | 30 => ⟨S500000x1, .i32⟩
  | 31 => ⟨S100000x128, .f32⟩
  | 32 => ⟨S_, .f32⟩
  | 33 => ⟨S500000, .f32⟩
  | 34 => ⟨S_, .f32⟩
  | 35 => ⟨S100000, .f32⟩
  | 36 => ⟨S500000x1, .i32⟩
  | 37 => ⟨S100000, .f32⟩
  | 38 => ⟨S_, .f32⟩
  | 39 => ⟨S100000, .f32⟩
  | 40 => ⟨S100000, .i1⟩
  | 41 => ⟨S100000x1, .i1⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S_, .f32⟩
  | 49 => ⟨S_, .f32⟩
  | 50 => ⟨S100000x128, .i1⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S1x500000, .i32⟩
  | 61 => ⟨S500000, .i32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S1, .i32⟩
  | 73 => ⟨S_, .i32⟩
  | 74 => ⟨S500000x1, .i32⟩
  | 75 => ⟨S500000x1, .i1⟩
  | 76 => ⟨S1x1, .i32⟩
  | 77 => ⟨S500000x1, .i32⟩
  | 78 => ⟨S500000x1, .i1⟩
  | 79 => ⟨S500000x1, .i1⟩
  | 80 => ⟨S_, .i1⟩
  | 81 => ⟨S500000, .i1⟩
  | 82 => ⟨S500000x128, .f32⟩
  | 83 => ⟨S500000x128, .i1⟩
  | 84 => ⟨S_, .f32⟩
  | 85 => ⟨S500000x128, .f32⟩
  | 86 => ⟨S500000x128, .f32⟩
  | 87 => ⟨S_, .f32⟩
  | 88 => ⟨S100000x128, .f32⟩
  | 89 => ⟨S500000x1, .i32⟩
  | 90 => ⟨S100000x128, .f32⟩
  | 91 => ⟨S_, .f32⟩
  | 92 => ⟨S500000, .f32⟩
  | 93 => ⟨S_, .f32⟩
  | 94 => ⟨S100000, .f32⟩
  | 95 => ⟨S500000x1, .i32⟩
  | 96 => ⟨S100000, .f32⟩
  | 97 => ⟨S_, .f32⟩
  | 98 => ⟨S100000, .f32⟩
  | 99 => ⟨S100000, .i1⟩
  | 100 => ⟨S100000x1, .i1⟩
  | 101 => ⟨S_, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S_, .f32⟩
  | 108 => ⟨S_, .f32⟩
  | 109 => ⟨S100000x128, .i1⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S1x500000, .i32⟩
  | 122 => ⟨S500000, .i32⟩
  | 123 => ⟨S1x500000, .i32⟩
  | 124 => ⟨S500000, .i32⟩
  | 125 => ⟨S_, .i32⟩
  | 126 => ⟨S500000, .i32⟩
  | 127 => ⟨S500000, .i1⟩
  | _ => ⟨S100000x128, .f32⟩

abbrev hbmTy0_2 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S1, .i32⟩
  | 6 => ⟨S_, .i32⟩
  | 7 => ⟨S500000x1, .i32⟩
  | 8 => ⟨S500000x1, .i1⟩
  | 9 => ⟨S1x1, .i32⟩
  | 10 => ⟨S500000x1, .i32⟩
  | 11 => ⟨S500000x1, .i1⟩
  | 12 => ⟨S500000x1, .i1⟩
  | 13 => ⟨S_, .i1⟩
  | 14 => ⟨S500000, .i1⟩
  | 15 => ⟨S500000x128, .f32⟩
  | 16 => ⟨S500000x128, .i1⟩
  | 17 => ⟨S_, .f32⟩
  | 18 => ⟨S500000x128, .f32⟩
  | 19 => ⟨S500000x128, .f32⟩
  | 20 => ⟨S_, .f32⟩
  | 21 => ⟨S100000x128, .f32⟩
  | 22 => ⟨S500000x1, .i32⟩
  | 23 => ⟨S100000x128, .f32⟩
  | 24 => ⟨S_, .f32⟩
  | 25 => ⟨S500000, .f32⟩
  | 26 => ⟨S_, .f32⟩
  | 27 => ⟨S100000, .f32⟩
  | 28 => ⟨S500000x1, .i32⟩
  | 29 => ⟨S100000, .f32⟩
  | 30 => ⟨S_, .f32⟩
  | 31 => ⟨S100000, .f32⟩
  | 32 => ⟨S100000, .i1⟩
  | 33 => ⟨S100000x1, .i1⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S_, .f32⟩
  | 41 => ⟨S_, .f32⟩
  | 42 => ⟨S100000x128, .i1⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S1x500000, .i32⟩
  | 53 => ⟨S500000, .i32⟩
  | 54 => ⟨S1x500000, .i32⟩
  | 55 => ⟨S500000, .i32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S1, .i32⟩
  | 65 => ⟨S_, .i32⟩
  | 66 => ⟨S500000x1, .i32⟩
  | 67 => ⟨S500000x1, .i1⟩
  | 68 => ⟨S1x1, .i32⟩
  | 69 => ⟨S500000x1, .i32⟩
  | 70 => ⟨S500000x1, .i1⟩
  | 71 => ⟨S500000x1, .i1⟩
  | 72 => ⟨S_, .i1⟩
  | 73 => ⟨S500000, .i1⟩
  | 74 => ⟨S500000x128, .f32⟩
  | 75 => ⟨S500000x128, .i1⟩
  | 76 => ⟨S_, .f32⟩
  | 77 => ⟨S500000x128, .f32⟩
  | 78 => ⟨S500000x128, .f32⟩
  | 79 => ⟨S_, .f32⟩
  | 80 => ⟨S100000x128, .f32⟩
  | 81 => ⟨S500000x1, .i32⟩
  | 82 => ⟨S100000x128, .f32⟩
  | 83 => ⟨S_, .f32⟩
  | 84 => ⟨S500000, .f32⟩
  | 85 => ⟨S_, .f32⟩
  | 86 => ⟨S100000, .f32⟩
  | 87 => ⟨S500000x1, .i32⟩
  | 88 => ⟨S100000, .f32⟩
  | 89 => ⟨S_, .f32⟩
  | 90 => ⟨S100000, .f32⟩
  | 91 => ⟨S100000, .i1⟩
  | 92 => ⟨S100000x1, .i1⟩
  | 93 => ⟨S_, .f32⟩
  | 94 => ⟨S100000, .f32⟩
  | 95 => ⟨S100000, .f32⟩
  | 96 => ⟨S100000x1, .f32⟩
  | 97 => ⟨S100000x128, .f32⟩
  | 98 => ⟨S100000x128, .f32⟩
  | 99 => ⟨S_, .f32⟩
  | 100 => ⟨S_, .f32⟩
  | 101 => ⟨S100000x128, .i1⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_3 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call2_cst : Ref sig .tc := ⟨.hbm, 64, rfl⟩
abbrev main_call2_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v31 : Ref sig .tc := ⟨.hbm, 94, rfl⟩
abbrev main_cst_5 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_cst_6 : Ref sig .tc := ⟨.hbm, 99, rfl⟩
abbrev main_v35 : Ref sig .tc := ⟨.hbm, 100, rfl⟩
abbrev main_cst_7 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_8 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_9 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_cst_10 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_call5_cst : Ref sig .tc := ⟨.hbm, 123, rfl⟩
abbrev main_call5_v0 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_call6_c : Ref sig .tc := ⟨.hbm, 133, rfl⟩
abbrev main_call6_v0 : Ref sig .tc := ⟨.hbm, 134, rfl⟩
abbrev main_call6_v1 : Ref sig .tc := ⟨.hbm, 135, rfl⟩
abbrev main_call6_c_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_c_1 : Ref sig .tc := ⟨.hbm, 141, rfl⟩
abbrev main_call6_c_2 : Ref sig .tc := ⟨.hbm, 142, rfl⟩
abbrev main_call6_v6 : Ref sig .tc := ⟨.hbm, 143, rfl⟩
abbrev main_call6_v7 : Ref sig .tc := ⟨.hbm, 144, rfl⟩
abbrev main_call6_v8 : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_c_3 : Ref sig .tc := ⟨.hbm, 149, rfl⟩
abbrev main_call6_v12 : Ref sig .tc := ⟨.hbm, 150, rfl⟩
abbrev main_call6_v13 : Ref sig .tc := ⟨.hbm, 151, rfl⟩
abbrev main_call6_v14 : Ref sig .tc := ⟨.hbm, 152, rfl⟩
abbrev main_call6_cst : Ref sig .tc := ⟨.hbm, 153, rfl⟩
abbrev main_call6_v15 : Ref sig .tc := ⟨.hbm, 154, rfl⟩
abbrev main_v59 : Ref sig .tc := ⟨.hbm, 155, rfl⟩
abbrev main_cst_11 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_cst_12 : Ref sig .tc := ⟨.hbm, 160, rfl⟩
abbrev main_v63 : Ref sig .tc := ⟨.hbm, 161, rfl⟩
abbrev main_cst_13 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_cst_14 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_cst_15 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_cst_16 : Ref sig .tc := ⟨.hbm, 176, rfl⟩
abbrev main_call7_v0 : Ref sig .tc := ⟨.hbm, 177, rfl⟩
abbrev main_call7_v1 : Ref sig .tc := ⟨.hbm, 178, rfl⟩
abbrev main_call7_v2 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_call8_cst : Ref sig .tc := ⟨.hbm, 184, rfl⟩
abbrev main_call8_v0 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_call9_c : Ref sig .tc := ⟨.hbm, 192, rfl⟩
abbrev main_call9_v0 : Ref sig .tc := ⟨.hbm, 193, rfl⟩
abbrev main_call9_v1 : Ref sig .tc := ⟨.hbm, 194, rfl⟩
abbrev main_call9_c_0 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_call9_v5 : Ref sig .tc := ⟨.hbm, 199, rfl⟩
abbrev main_call9_c_1 : Ref sig .tc := ⟨.hbm, 200, rfl⟩
abbrev main_call9_c_2 : Ref sig .tc := ⟨.hbm, 201, rfl⟩
abbrev main_call9_v6 : Ref sig .tc := ⟨.hbm, 202, rfl⟩
abbrev main_call9_v7 : Ref sig .tc := ⟨.hbm, 203, rfl⟩
abbrev main_call9_v8 : Ref sig .tc := ⟨.hbm, 204, rfl⟩
abbrev main_call9_v9 : Ref sig .tc := ⟨.hbm, 205, rfl⟩
abbrev main_call9_v10 : Ref sig .tc := ⟨.hbm, 206, rfl⟩
abbrev main_call9_v11 : Ref sig .tc := ⟨.hbm, 207, rfl⟩
abbrev main_call9_c_3 : Ref sig .tc := ⟨.hbm, 208, rfl⟩
abbrev main_call9_v12 : Ref sig .tc := ⟨.hbm, 209, rfl⟩
abbrev main_call9_v13 : Ref sig .tc := ⟨.hbm, 210, rfl⟩
abbrev main_call9_v14 : Ref sig .tc := ⟨.hbm, 211, rfl⟩
abbrev main_call9_cst : Ref sig .tc := ⟨.hbm, 212, rfl⟩
abbrev main_call9_v15 : Ref sig .tc := ⟨.hbm, 213, rfl⟩
abbrev main_v85 : Ref sig .tc := ⟨.hbm, 214, rfl⟩
abbrev main_cst_17 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_cst_18 : Ref sig .tc := ⟨.hbm, 219, rfl⟩
abbrev main_v89 : Ref sig .tc := ⟨.hbm, 220, rfl⟩
abbrev main_cst_19 : Ref sig .tc := ⟨.hbm, 221, rfl⟩
abbrev main_v90 : Ref sig .tc := ⟨.hbm, 222, rfl⟩
abbrev main_v91 : Ref sig .tc := ⟨.hbm, 223, rfl⟩
abbrev main_v92 : Ref sig .tc := ⟨.hbm, 224, rfl⟩
abbrev main_cst_20 : Ref sig .tc := ⟨.hbm, 225, rfl⟩
abbrev main_v93 : Ref sig .tc := ⟨.hbm, 226, rfl⟩
abbrev main_v94 : Ref sig .tc := ⟨.hbm, 227, rfl⟩
abbrev main_v95 : Ref sig .tc := ⟨.hbm, 228, rfl⟩
abbrev main_cst_21 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev main_v100 : Ref sig .tc := ⟨.hbm, 234, rfl⟩
abbrev main_cst_22 : Ref sig .tc := ⟨.hbm, 235, rfl⟩
abbrev main_call10_v0 : Ref sig .tc := ⟨.hbm, 236, rfl⟩
abbrev main_call10_v1 : Ref sig .tc := ⟨.hbm, 237, rfl⟩
abbrev main_call10_v2 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_call11_cst : Ref sig .tc := ⟨.hbm, 243, rfl⟩
abbrev main_call11_v0 : Ref sig .tc := ⟨.hbm, 244, rfl⟩
abbrev main_v105 : Ref sig .tc := ⟨.hbm, 245, rfl⟩
abbrev main_v106 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_call12_c : Ref sig .tc := ⟨.hbm, 253, rfl⟩
abbrev main_call12_v0 : Ref sig .tc := ⟨.hbm, 254, rfl⟩
abbrev main_call12_v1 : Ref sig .tc := ⟨.hbm, 255, rfl⟩
abbrev main_call12_c_0 : Ref sig .tc := ⟨.hbm, 256, rfl⟩
abbrev main_call12_v2 : Ref sig .tc := ⟨.hbm, 257, rfl⟩
abbrev main_call12_v3 : Ref sig .tc := ⟨.hbm, 258, rfl⟩
abbrev main_call12_v4 : Ref sig .tc := ⟨.hbm, 259, rfl⟩
abbrev main_call12_v5 : Ref sig .tc := ⟨.hbm, 260, rfl⟩
abbrev main_call12_c_1 : Ref sig .tc := ⟨.hbm, 261, rfl⟩
abbrev main_call12_c_2 : Ref sig .tc := ⟨.hbm, 262, rfl⟩
abbrev main_call12_v6 : Ref sig .tc := ⟨.hbm, 263, rfl⟩
abbrev main_call12_v7 : Ref sig .tc := ⟨.hbm, 264, rfl⟩
abbrev main_call12_v8 : Ref sig .tc := ⟨.hbm, 265, rfl⟩
abbrev main_call12_v9 : Ref sig .tc := ⟨.hbm, 266, rfl⟩
abbrev main_call12_v10 : Ref sig .tc := ⟨.hbm, 267, rfl⟩
abbrev main_call12_v11 : Ref sig .tc := ⟨.hbm, 268, rfl⟩
abbrev main_call12_c_3 : Ref sig .tc := ⟨.hbm, 269, rfl⟩
abbrev main_call12_v12 : Ref sig .tc := ⟨.hbm, 270, rfl⟩
abbrev main_call12_v13 : Ref sig .tc := ⟨.hbm, 271, rfl⟩
abbrev main_call12_v14 : Ref sig .tc := ⟨.hbm, 272, rfl⟩
abbrev main_call12_cst : Ref sig .tc := ⟨.hbm, 273, rfl⟩
abbrev main_call12_v15 : Ref sig .tc := ⟨.hbm, 274, rfl⟩
abbrev main_v113 : Ref sig .tc := ⟨.hbm, 275, rfl⟩
abbrev main_cst_23 : Ref sig .tc := ⟨.hbm, 276, rfl⟩
abbrev main_v114 : Ref sig .tc := ⟨.hbm, 277, rfl⟩
abbrev main_v115 : Ref sig .tc := ⟨.hbm, 278, rfl⟩
abbrev main_v116 : Ref sig .tc := ⟨.hbm, 279, rfl⟩
abbrev main_cst_24 : Ref sig .tc := ⟨.hbm, 280, rfl⟩
abbrev main_v117 : Ref sig .tc := ⟨.hbm, 281, rfl⟩
abbrev main_cst_25 : Ref sig .tc := ⟨.hbm, 282, rfl⟩
abbrev main_v118 : Ref sig .tc := ⟨.hbm, 283, rfl⟩
abbrev main_v119 : Ref sig .tc := ⟨.hbm, 284, rfl⟩
abbrev main_v120 : Ref sig .tc := ⟨.hbm, 285, rfl⟩
abbrev main_cst_26 : Ref sig .tc := ⟨.hbm, 286, rfl⟩
abbrev main_v121 : Ref sig .tc := ⟨.hbm, 287, rfl⟩
abbrev main_v122 : Ref sig .tc := ⟨.hbm, 288, rfl⟩
abbrev main_v123 : Ref sig .tc := ⟨.hbm, 289, rfl⟩
abbrev main_cst_27 : Ref sig .tc := ⟨.hbm, 290, rfl⟩
abbrev main_v124 : Ref sig .tc := ⟨.hbm, 291, rfl⟩
abbrev main_v125 : Ref sig .tc := ⟨.hbm, 292, rfl⟩
abbrev main_v126 : Ref sig .tc := ⟨.hbm, 293, rfl⟩
abbrev main_v127 : Ref sig .tc := ⟨.hbm, 294, rfl⟩
abbrev main_v128 : Ref sig .tc := ⟨.hbm, 295, rfl⟩
abbrev main_cst_28 : Ref sig .tc := ⟨.hbm, 296, rfl⟩
abbrev main_call13_v0 : Ref sig .tc := ⟨.hbm, 297, rfl⟩
abbrev main_call13_v1 : Ref sig .tc := ⟨.hbm, 298, rfl⟩
abbrev main_call13_v2 : Ref sig .tc := ⟨.hbm, 299, rfl⟩
abbrev main_v129 : Ref sig .tc := ⟨.hbm, 300, rfl⟩
abbrev main_v130 : Ref sig .tc := ⟨.hbm, 301, rfl⟩
abbrev main_v131 : Ref sig .tc := ⟨.hbm, 302, rfl⟩
abbrev main_v132 : Ref sig .tc := ⟨.hbm, 303, rfl⟩
abbrev main_call14_cst : Ref sig .tc := ⟨.hbm, 304, rfl⟩
abbrev main_call14_v0 : Ref sig .tc := ⟨.hbm, 305, rfl⟩
abbrev main_v133 : Ref sig .tc := ⟨.hbm, 306, rfl⟩
abbrev main_v134 : Ref sig .tc := ⟨.hbm, 307, rfl⟩
abbrev main_v135 : Ref sig .tc := ⟨.hbm, 308, rfl⟩
abbrev main_v136 : Ref sig .tc := ⟨.hbm, 309, rfl⟩
abbrev main_v137 : Ref sig .tc := ⟨.hbm, 310, rfl⟩
abbrev main_v138 : Ref sig .tc := ⟨.hbm, 311, rfl⟩
abbrev main_call15_c : Ref sig .tc := ⟨.hbm, 312, rfl⟩
abbrev main_call15_v0 : Ref sig .tc := ⟨.hbm, 313, rfl⟩
abbrev main_call15_v1 : Ref sig .tc := ⟨.hbm, 314, rfl⟩
abbrev main_call15_c_0 : Ref sig .tc := ⟨.hbm, 315, rfl⟩
abbrev main_call15_v2 : Ref sig .tc := ⟨.hbm, 316, rfl⟩
abbrev main_call15_v3 : Ref sig .tc := ⟨.hbm, 317, rfl⟩
abbrev main_call15_v4 : Ref sig .tc := ⟨.hbm, 318, rfl⟩
abbrev main_call15_v5 : Ref sig .tc := ⟨.hbm, 319, rfl⟩
abbrev main_call15_c_1 : Ref sig .tc := ⟨.hbm, 320, rfl⟩
abbrev main_call15_c_2 : Ref sig .tc := ⟨.hbm, 321, rfl⟩
abbrev main_call15_v6 : Ref sig .tc := ⟨.hbm, 322, rfl⟩
abbrev main_call15_v7 : Ref sig .tc := ⟨.hbm, 323, rfl⟩
abbrev main_call15_v8 : Ref sig .tc := ⟨.hbm, 324, rfl⟩
abbrev main_call15_v9 : Ref sig .tc := ⟨.hbm, 325, rfl⟩
abbrev main_call15_v10 : Ref sig .tc := ⟨.hbm, 326, rfl⟩
abbrev main_call15_v11 : Ref sig .tc := ⟨.hbm, 327, rfl⟩
abbrev main_call15_c_3 : Ref sig .tc := ⟨.hbm, 328, rfl⟩
abbrev main_call15_v12 : Ref sig .tc := ⟨.hbm, 329, rfl⟩
abbrev main_call15_v13 : Ref sig .tc := ⟨.hbm, 330, rfl⟩
abbrev main_call15_v14 : Ref sig .tc := ⟨.hbm, 331, rfl⟩
abbrev main_call15_cst : Ref sig .tc := ⟨.hbm, 332, rfl⟩
abbrev main_call15_v15 : Ref sig .tc := ⟨.hbm, 333, rfl⟩
abbrev main_v139 : Ref sig .tc := ⟨.hbm, 334, rfl⟩
abbrev main_cst_29 : Ref sig .tc := ⟨.hbm, 335, rfl⟩
abbrev main_v140 : Ref sig .tc := ⟨.hbm, 336, rfl⟩
abbrev main_v141 : Ref sig .tc := ⟨.hbm, 337, rfl⟩
abbrev main_v142 : Ref sig .tc := ⟨.hbm, 338, rfl⟩
abbrev main_cst_30 : Ref sig .tc := ⟨.hbm, 339, rfl⟩
abbrev main_v143 : Ref sig .tc := ⟨.hbm, 340, rfl⟩
abbrev main_cst_31 : Ref sig .tc := ⟨.hbm, 341, rfl⟩
abbrev main_v144 : Ref sig .tc := ⟨.hbm, 342, rfl⟩
abbrev main_v145 : Ref sig .tc := ⟨.hbm, 343, rfl⟩
abbrev main_v146 : Ref sig .tc := ⟨.hbm, 344, rfl⟩
abbrev main_cst_32 : Ref sig .tc := ⟨.hbm, 345, rfl⟩
abbrev main_v147 : Ref sig .tc := ⟨.hbm, 346, rfl⟩
abbrev main_v148 : Ref sig .tc := ⟨.hbm, 347, rfl⟩
abbrev main_v149 : Ref sig .tc := ⟨.hbm, 348, rfl⟩
abbrev main_cst_33 : Ref sig .tc := ⟨.hbm, 349, rfl⟩
abbrev main_v150 : Ref sig .tc := ⟨.hbm, 350, rfl⟩
abbrev main_v151 : Ref sig .tc := ⟨.hbm, 351, rfl⟩
abbrev main_v152 : Ref sig .tc := ⟨.hbm, 352, rfl⟩
abbrev main_v153 : Ref sig .tc := ⟨.hbm, 353, rfl⟩
abbrev main_v154 : Ref sig .tc := ⟨.hbm, 354, rfl⟩
abbrev main_cst_34 : Ref sig .tc := ⟨.hbm, 355, rfl⟩
abbrev main_call16_v0 : Ref sig .tc := ⟨.hbm, 356, rfl⟩
abbrev main_call16_v1 : Ref sig .tc := ⟨.hbm, 357, rfl⟩
abbrev main_call16_v2 : Ref sig .tc := ⟨.hbm, 358, rfl⟩
abbrev main_v155 : Ref sig .tc := ⟨.hbm, 359, rfl⟩
abbrev main_v156 : Ref sig .tc := ⟨.hbm, 360, rfl⟩
abbrev main_v157 : Ref sig .tc := ⟨.hbm, 361, rfl⟩
abbrev main_v158 : Ref sig .tc := ⟨.hbm, 362, rfl⟩
abbrev main_call17_cst : Ref sig .tc := ⟨.hbm, 363, rfl⟩
abbrev main_call17_v0 : Ref sig .tc := ⟨.hbm, 364, rfl⟩
abbrev main_v159 : Ref sig .tc := ⟨.hbm, 365, rfl⟩
abbrev main_v160 : Ref sig .tc := ⟨.hbm, 366, rfl⟩
abbrev main_v161 : Ref sig .tc := ⟨.hbm, 367, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v107) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v108) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v106) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v134) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 284
  | .vmem => 0
  | .smem => 0
  | _ => 0

abbrev hbmTy0_0 (i : Nat) : BufTy := match i % 128 with
  | 0 => ⟨S100000x128, .f32⟩
  | 1 => ⟨S100000x128, .f32⟩
  | 2 => ⟨S2x500000, .i32⟩
  | 3 => ⟨S2x500000, .i32⟩
  | 4 => ⟨S128x128, .f32⟩
  | 5 => ⟨S128x128, .f32⟩
  | 6 => ⟨S128, .f32⟩
  | 7 => ⟨S128, .f32⟩
  | 8 => ⟨S100000x128, .f32⟩
  | 9 => ⟨S1x500000, .i32⟩
  | 10 => ⟨S500000, .i32⟩
  | 11 => ⟨S1x500000, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x128, .f32⟩
  | 22 => ⟨S_, .f32⟩
  | 23 => ⟨S100000x128, .f32⟩
  | 24 => ⟨S500000x1, .i32⟩
  | 25 => ⟨S100000x128, .f32⟩
  | 26 => ⟨S_, .f32⟩
  | 27 => ⟨S500000, .f32⟩
  | 28 => ⟨S_, .f32⟩
  | 29 => ⟨S100000, .f32⟩
  | 30 => ⟨S500000x1, .i32⟩
  | 31 => ⟨S100000, .f32⟩
  | 32 => ⟨S_, .f32⟩
  | 33 => ⟨S100000, .f32⟩
  | 34 => ⟨S100000, .i1⟩
  | 35 => ⟨S100000x1, .i1⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S_, .f32⟩
  | 43 => ⟨S_, .f32⟩
  | 44 => ⟨S100000x128, .i1⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S1x500000, .i32⟩
  | 55 => ⟨S500000, .i32⟩
  | 56 => ⟨S1x500000, .i32⟩
  | 57 => ⟨S500000, .i32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x128, .f32⟩
  | 67 => ⟨S_, .f32⟩
  | 68 => ⟨S100000x128, .f32⟩
  | 69 => ⟨S500000x1, .i32⟩
  | 70 => ⟨S100000x128, .f32⟩
  | 71 => ⟨S_, .f32⟩
  | 72 => ⟨S500000, .f32⟩
  | 73 => ⟨S_, .f32⟩
  | 74 => ⟨S100000, .f32⟩
  | 75 => ⟨S500000x1, .i32⟩
  | 76 => ⟨S100000, .f32⟩
  | 77 => ⟨S_, .f32⟩
  | 78 => ⟨S100000, .f32⟩
  | 79 => ⟨S100000, .i1⟩
  | 80 => ⟨S100000x1, .i1⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S_, .f32⟩
  | 88 => ⟨S_, .f32⟩
  | 89 => ⟨S100000x128, .i1⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S100000x128, .f32⟩
  | 100 => ⟨S100000x128, .f32⟩
  | 101 => ⟨S1x500000, .i32⟩
  | 102 => ⟨S500000, .i32⟩
  | 103 => ⟨S1x500000, .i32⟩
  | 104 => ⟨S500000, .i32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S500000x128, .f32⟩
  | 114 => ⟨S_, .f32⟩
  | 115 => ⟨S100000x128, .f32⟩
  | 116 => ⟨S500000x1, .i32⟩
  | 117 => ⟨S100000x128, .f32⟩
  | 118 => ⟨S_, .f32⟩
  | 119 => ⟨S500000, .f32⟩
  | 120 => ⟨S_, .f32⟩
  | 121 => ⟨S100000, .f32⟩
  | 122 => ⟨S500000x1, .i32⟩
  | 123 => ⟨S100000, .f32⟩
  | 124 => ⟨S_, .f32⟩
  | 125 => ⟨S100000, .f32⟩
  | 126 => ⟨S100000, .i1⟩
  | 127 => ⟨S100000x1, .i1⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S_, .f32⟩
  | 7 => ⟨S_, .f32⟩
  | 8 => ⟨S100000x128, .i1⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S1x500000, .i32⟩
  | 19 => ⟨S500000, .i32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .f32⟩
  | 32 => ⟨S100000x128, .f32⟩
  | 33 => ⟨S500000x1, .i32⟩
  | 34 => ⟨S100000x128, .f32⟩
  | 35 => ⟨S_, .f32⟩
  | 36 => ⟨S500000, .f32⟩
  | 37 => ⟨S_, .f32⟩
  | 38 => ⟨S100000, .f32⟩
  | 39 => ⟨S500000x1, .i32⟩
  | 40 => ⟨S100000, .f32⟩
  | 41 => ⟨S_, .f32⟩
  | 42 => ⟨S100000, .f32⟩
  | 43 => ⟨S100000, .i1⟩
  | 44 => ⟨S100000x1, .i1⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S_, .f32⟩
  | 52 => ⟨S_, .f32⟩
  | 53 => ⟨S100000x128, .i1⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S100000x128, .f32⟩
  | 64 => ⟨S100000x128, .f32⟩
  | 65 => ⟨S1x500000, .i32⟩
  | 66 => ⟨S500000, .i32⟩
  | 67 => ⟨S1x500000, .i32⟩
  | 68 => ⟨S500000, .i32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S_, .f32⟩
  | 79 => ⟨S100000x128, .f32⟩
  | 80 => ⟨S500000x1, .i32⟩
  | 81 => ⟨S100000x128, .f32⟩
  | 82 => ⟨S_, .f32⟩
  | 83 => ⟨S500000, .f32⟩
  | 84 => ⟨S_, .f32⟩
  | 85 => ⟨S100000, .f32⟩
  | 86 => ⟨S500000x1, .i32⟩
  | 87 => ⟨S100000, .f32⟩
  | 88 => ⟨S_, .f32⟩
  | 89 => ⟨S100000, .f32⟩
  | 90 => ⟨S100000, .i1⟩
  | 91 => ⟨S100000x1, .i1⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S_, .f32⟩
  | 99 => ⟨S_, .f32⟩
  | 100 => ⟨S100000x128, .i1⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S1x500000, .i32⟩
  | 111 => ⟨S500000, .i32⟩
  | 112 => ⟨S1x500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x128, .f32⟩
  | 123 => ⟨S_, .f32⟩
  | 124 => ⟨S100000x128, .f32⟩
  | 125 => ⟨S500000x1, .i32⟩
  | 126 => ⟨S100000x128, .f32⟩
  | 127 => ⟨S_, .f32⟩
  | _ => ⟨S100000x128, .f32⟩

abbrev hbmTy0_2 (i : Nat) : BufTy := match i % 128 with
  | 0 => ⟨S500000, .f32⟩
  | 1 => ⟨S_, .f32⟩
  | 2 => ⟨S100000, .f32⟩
  | 3 => ⟨S500000x1, .i32⟩
  | 4 => ⟨S100000, .f32⟩
  | 5 => ⟨S_, .f32⟩
  | 6 => ⟨S100000, .f32⟩
  | 7 => ⟨S100000, .i1⟩
  | 8 => ⟨S100000x1, .i1⟩
  | 9 => ⟨S_, .f32⟩
  | 10 => ⟨S100000, .f32⟩
  | 11 => ⟨S100000, .f32⟩
  | 12 => ⟨S100000x1, .f32⟩
  | 13 => ⟨S100000x128, .f32⟩
  | 14 => ⟨S100000x128, .f32⟩
  | 15 => ⟨S_, .f32⟩
  | 16 => ⟨S_, .f32⟩
  | 17 => ⟨S100000x128, .i1⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S100000x128, .f32⟩
  | 27 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call3_cst : Ref sig .tc := ⟨.hbm, 95, rfl⟩
abbrev main_call3_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_21 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call5_cst : Ref sig .tc := ⟨.hbm, 142, rfl⟩
abbrev main_call5_v0 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_22 : Ref sig .tc := ⟨.hbm, 150, rfl⟩
abbrev main_v103 : Ref sig .tc := ⟨.hbm, 151, rfl⟩
abbrev main_v104 : Ref sig .tc := ⟨.hbm, 152, rfl⟩
abbrev main_c_23 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_24 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_25 : Ref sig .tc := ⟨.hbm, 163, rfl⟩
abbrev main_v113 : Ref sig .tc := ⟨.hbm, 164, rfl⟩
abbrev main_cst_26 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_27 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_28 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_29 : Ref sig .tc := ⟨.hbm, 179, rfl⟩
abbrev main_call6_v0 : Ref sig .tc := ⟨.hbm, 180, rfl⟩
abbrev main_call6_v1 : Ref sig .tc := ⟨.hbm, 181, rfl⟩
abbrev main_call6_v2 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_call7_cst : Ref sig .tc := ⟨.hbm, 187, rfl⟩
abbrev main_call7_v0 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_c_30 : Ref sig .tc := ⟨.hbm, 197, rfl⟩
abbrev main_v137 : Ref sig .tc := ⟨.hbm, 198, rfl⟩
abbrev main_v138 : Ref sig .tc := ⟨.hbm, 199, rfl⟩
abbrev main_c_31 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_32 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_33 : Ref sig .tc := ⟨.hbm, 210, rfl⟩
abbrev main_v147 : Ref sig .tc := ⟨.hbm, 211, rfl⟩
abbrev main_cst_34 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_35 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_cst_36 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_cst_37 : Ref sig .tc := ⟨.hbm, 226, rfl⟩
abbrev main_call8_v0 : Ref sig .tc := ⟨.hbm, 227, rfl⟩
abbrev main_call8_v1 : Ref sig .tc := ⟨.hbm, 228, rfl⟩
abbrev main_call8_v2 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_call9_cst : Ref sig .tc := ⟨.hbm, 234, rfl⟩
abbrev main_call9_v0 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_c_38 : Ref sig .tc := ⟨.hbm, 242, rfl⟩
abbrev main_v169 : Ref sig .tc := ⟨.hbm, 243, rfl⟩
abbrev main_v170 : Ref sig .tc := ⟨.hbm, 244, rfl⟩
abbrev main_c_39 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_cst_40 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_cst_41 : Ref sig .tc := ⟨.hbm, 255, rfl⟩
abbrev main_v179 : Ref sig .tc := ⟨.hbm, 256, rfl⟩
abbrev main_cst_42 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_cst_43 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_cst_44 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_cst_45 : Ref sig .tc := ⟨.hbm, 271, rfl⟩
abbrev main_call10_v0 : Ref sig .tc := ⟨.hbm, 272, rfl⟩
abbrev main_call10_v1 : Ref sig .tc := ⟨.hbm, 273, rfl⟩
abbrev main_call10_v2 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_call11_cst : Ref sig .tc := ⟨.hbm, 279, rfl⟩
abbrev main_call11_v0 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

class Facts : Prop extends Facts₀ where

variable [Facts]
-- ==== Proof.Spec.lean ====
/-
  The two programs as functions of the eight argument arrays.

  One round of message passing in one direction, for a source table x [100000, 128], a weight matrix w [128, 128], an
  edge table ei [2, 500000] (row 0 the source node of each edge, row 1 its destination) and a bias [128]:
    weighted = x · w                                  (the matrix product, rows by columns)
    gathered = weighted at the rows the edges' sources name
    msgs     = per destination node, the sum of its edges' gathered rows; cnt = the number of its edges
    new      = max (where (cnt > 0) (msgs / max cnt 1) 0 + bias) 0
  Both programs run three rounds, each updating both node tables from the tables of the round before.

  They differ in two places only. The kernel computes the product tile by tile on the matrix unit (`mm` is its value:
  Proof/RegionValue.lean). And the kernel gathers with jnp.take in its fill mode (`takeRows`: a row whose normalised index falls
  outside [0, 99999] is replaced by NaN) where the reference indexes (`gatherRows`: the clamped gather alone). Everything after
  the gather (`meanRelu`) is the same sequence of operations in both, and is never opened.
-/
import proofs.«400287_j68238440398870_1_alg».proof.KernelIdeal

noncomputable section

namespace Cert.Mp

open Idealize.ShloMosaic Cert.KernelIdeal Cert.KernelIdeal.Facts₀ Cert.KernelIdeal.Facts

variable {F : FTy → Type} [FloatOps F] [Cert.KernelIdeal.Facts]

/-- Row 0 of an edge table: each edge's source node. -/
def srcIdx (ei : IVec S2x500000 32) : IVec S500000 32 :=
  shapeCast S500000 (extractStridedSlice S1x500000 ![0, 0] ei slices_S2x500000_S1x500000_0_0) shapeCasts_S1x500000_S500000

/-- Row 1 of an edge table: each edge's destination node. -/
def dstIdx (ei : IVec S2x500000 32) : IVec S500000 32 :=
  shapeCast S500000 (extractStridedSlice S1x500000 ![1, 0] ei slices_S2x500000_S1x500000_1_0) shapeCasts_S1x500000_S500000

/-- jnp's index normalisation for a table of 100000 rows: a negative word counts from the end. -/
def normIdx (idx : IVec S500000 32) : IVec S500000 32 :=
  select (cmpi .slt idx (broadcastInDim S500000 ![] bcast_S_S500000 (constantI S_ 32 0#32)))
    (addi idx (broadcastInDim S500000 ![] bcast_S_S500000 (constantI S_ 32 100000#32))) idx

/-- The normalised indices as the gather's column of start indices. -/
def colIdx (idx : IVec S500000 32) : IVec S500000x1 32 :=
  broadcastInDim S500000x1 ![0] bcast_S500000_S500000x1_0 (normIdx idx)

/-- Plain indexing table[idx]: the rows at the normalised indices (the gather clamps a start index into the table). -/
def gatherRows (x : FVec F S100000x128 .f32) (idx : IVec S500000 32) : FVec F S500000x128 .f32 :=
  Host.gather gather_S100000x128_S500000x1_S500000x128_1_0_n_n_0_1_1128 x (colIdx idx)

/-- jnp.take's bounds mask: per edge, whether the normalised index lies in [0, 99999]. -/
def inMask (idx : IVec S500000 32) : IVec S500000 1 :=
  Host.reduce IntOp.andi
    (andi (cmpi .sge (colIdx idx) (broadcastInDim S500000x1 ![] bcast_S_S500000x1 (constantI S_ 32 0#32)))
      (cmpi .sle (colIdx idx) (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- jnp.take in its fill mode: the gathered row where the mask holds, NaN elsewhere. -/
def takeRows (x : FVec F S100000x128 .f32) (idx : IVec S500000 32) : FVec F S500000x128 .f32 :=
  select (broadcastInDim S500000x128 ![0] bcast_S500000_S500000x128_0 (inMask idx)) (gatherRows x idx)
    (broadcastInDim S500000x128 ![] bcast_S_S500000x128 (constant (F := F) S_ .f32 0x7FC00000#32))

/-- Everything after the gather: the segment sums of the gathered rows and of ones over the destinations, the mean where a
    node has an edge and zero where it has none, the bias, the rectifier. -/
def meanRelu (g : FVec F S500000x128 .f32) (dst : IVec S500000 32) (bias : FVec F S128 .f32) : FVec F S100000x128 .f32 :=
  maximumf
    (addf
      (select
        (broadcastInDim S100000x128 ![0, 1] bcast_S100000x1_S100000x128_0_1
          (broadcastInDim S100000x1 ![0] bcast_S100000_S100000x1_0
            (cmpf .ogt
              (Host.scatterAdd scatter_S100000_S500000x1_S500000_n_0_0_1
                (broadcastInDim S100000 ![] bcast_S_S100000 (constant (F := F) S_ .f32 0x00000000#32))
                (broadcastInDim S500000x1 ![0] bcast_S500000_S500000x1_0 dst)
                (broadcastInDim S500000 ![] bcast_S_S500000 (constant (F := F) S_ .f32 0x3F800000#32)))
              (broadcastInDim S100000 ![] bcast_S_S100000 (constant (F := F) S_ .f32 0x00000000#32)))))
        (Host.divf
          (Host.scatterAdd scatter_S100000x128_S500000x1_S500000x128_1_0_0_1
            (broadcastInDim S100000x128 ![] bcast_S_S100000x128 (constant (F := F) S_ .f32 0x00000000#32))
            (broadcastInDim S500000x1 ![0] bcast_S500000_S500000x1_0 dst) g)
          (broadcastInDim S100000x128 ![0, 1] bcast_S100000x1_S100000x128_0_1
            (broadcastInDim S100000x1 ![0] bcast_S100000_S100000x1_0
              (maximumf
                (Host.scatterAdd scatter_S100000_S500000x1_S500000_n_0_0_1
                  (broadcastInDim S100000 ![] bcast_S_S100000 (constant (F := F) S_ .f32 0x00000000#32))
                  (broadcastInDim S500000x1 ![0] bcast_S500000_S500000x1_0 dst)
                  (broadcastInDim S500000 ![] bcast_S_S500000 (constant (F := F) S_ .f32 0x3F800000#32)))
                (broadcastInDim S100000 ![] bcast_S_S100000 (constant (F := F) S_ .f32 0x3F800000#32))))))
        (broadcastInDim S100000x128 ![] bcast_S_S100000x128 (id (constant (F := F) S_ .f32 0x00000000#32))))
      (broadcastInDim S100000x128 ![0, 1] bcast_S1x128_S100000x128_0_1 (broadcastInDim S1x128 ![1] bcast_S128_S1x128_1 bias)))
    (broadcastInDim S100000x128 ![] bcast_S_S100000x128 (constant (F := F) S_ .f32 0x00000000#32))

/-- The matrix product x · w, rows by columns. -/
def mm (x : FVec F S100000x128 .f32) (w : FVec F S128x128 .f32) : FVec F S100000x128 .f32 :=
  Host.dotGeneral (DotDims.plain 100000 128 128) none x w

/-- One direction of one round as the kernel's program computes it (jnp.take). -/
def aggTake (x : FVec F S100000x128 .f32) (w : FVec F S128x128 .f32) (ei : IVec S2x500000 32) (bias : FVec F S128 .f32) :
    FVec F S100000x128 .f32 :=
  meanRelu (takeRows (mm x w) (srcIdx ei)) (dstIdx ei) bias

/-- One direction of one round as the reference computes it (plain indexing). -/
def aggIndex (x : FVec F S100000x128 .f32) (w : FVec F S128x128 .f32) (ei : IVec S2x500000 32) (bias : FVec F S128 .f32) :
    FVec F S100000x128 .f32 :=
  meanRelu (gatherRows (mm x w) (srcIdx ei)) (dstIdx ei) bias

section Rounds

variable (agg : FVec F S100000x128 .f32 → FVec F S128x128 .f32 → IVec S2x500000 32 → FVec F S128 .f32 → FVec F S100000x128 .f32)
variable (xa xb : FVec F S100000x128 .f32) (eab eba : IVec S2x500000 32) (wab wba : FVec F S128x128 .f32) (ba bb : FVec F S128 .f32)

/-- Node table A after one round: A plus the messages from B along the edges b → a. -/
def a1 : FVec F S100000x128 .f32 := addf xa (agg xb wba eba ba)
/-- Node table B after one round: B plus the messages from A along the edges a → b. -/
def b1 : FVec F S100000x128 .f32 := addf xb (agg xa wab eab bb)
def a2 : FVec F S100000x128 .f32 := addf (a1 agg xa xb eba wba ba) (agg (b1 agg xa xb eab wab bb) wba eba ba)
def b2 : FVec F S100000x128 .f32 := addf (b1 agg xa xb eab wab bb) (agg (a1 agg xa xb eba wba ba) wab eab bb)
/-- Node table A after the three rounds. -/
def a3 : FVec F S100000x128 .f32 :=
  addf (a2 agg xa xb eab eba wab wba ba bb) (agg (b2 agg xa xb eab eba wab wba ba bb) wba eba ba)
/-- Node table B after the three rounds. -/
def b3 : FVec F S100000x128 .f32 :=
  addf (b2 agg xa xb eab eba wab wba ba bb) (agg (a2 agg xa xb eab eba wab wba ba bb) wab eab bb)

end Rounds

/-- Every source index, read as a signed word, lies in [-100000, 100000): the range in which jnp's indexing of a table of
    100000 rows is in bounds. -/
def InRange (idx : IVec S500000 32) : Prop := ∀ e, (-100000 : Int) ≤ (idx e).toInt ∧ (idx e).toInt < 100000

end Cert.Mp

end
-- ==== Proof.AggNew0.lean ====
/-
  The host operations after a region, read as one function: what the stretch from a region's exit to the rectifier leaves in
  the round's result buffer is `meanRelu (takeRows …)` of the region's output array, the edge table and the bias as the
  stretch finds them. Each operation's result is read at its own buffer (the operations are straight-line, every buffer
  written once), and the composed term is the specification's, operation for operation.
  This module: aggregate 0 (round 1, the messages b → a).
-/
import proofs.«400287_j68238440398870_1_alg».proof.Proof.Gen.KernelIdeal.Frame
import proofs.«400287_j68238440398870_1_alg».proof.Proof.Spec
import Idealize.ShloMosaic.Lib.StableHlo.Run

set_option maxRecDepth 16384

noncomputable section

namespace Cert.Mp

open Idealize.ShloMosaic Idealize.ShloMosaic.TcCoe Idealize.ShloMosaic.StableHlo Cert.KernelIdeal Cert.KernelIdeal.Gen

variable {F : FTy → Type} [FloatOps F]
variable (m : (ℓ : Loc nD τ sig) → Buf (Elt F) ℓ) (ρ : Dev nD → PrngReg)

/-- From region 0's exit (`W1`) to the rectifier's result (`main_v25` at `W7`). -/
theorem agg0_new (c : Dev nD) :
    W7 m ρ c (Proc.devRef .tc main_v25)
      = meanRelu (takeRows (W1 m ρ c (Proc.devRef .tc main_v0)) (srcIdx (W1 m ρ c (Proc.devRef .tc main_arg3))))
          (dstIdx (W1 m ρ c (Proc.devRef .tc main_arg3))) (W1 m ρ c (Proc.devRef .tc main_arg6)) := by
  unfold W7 W6 W5 W4 W3 W2
  simp only [hostOps1, hostOps1_1, hostOps1_2, hostOps1_3, hostOps1_4, hostOps1_5]
  after_results_simp
  simp only [TRef.toBuf, TRef.ofBuf, cast_eq]
  rfl

end Cert.Mp

end
-- ==== Proof.AggNew1.lean ====
/-
  The host operations after a region, read as one function: what the stretch from a region's exit to the rectifier leaves in
  the round's result buffer is `meanRelu (takeRows …)` of the region's output array, the edge table and the bias as the
  stretch finds them. Each operation's result is read at its own buffer (the operations are straight-line, every buffer
  written once), and the composed term is the specification's, operation for operation.
  This module: aggregate 1 (round 1, the messages a → b).
-/
import proofs.«400287_j68238440398870_1_alg».proof.Proof.Gen.KernelIdeal.Frame
import proofs.«400287_j68238440398870_1_alg».proof.Proof.Spec
import Idealize.ShloMosaic.Lib.StableHlo.Run

set_option maxRecDepth 16384

noncomputable section

namespace Cert.Mp

open Idealize.ShloMosaic Idealize.ShloMosaic.TcCoe Idealize.ShloMosaic.StableHlo Cert.KernelIdeal Cert.KernelIdeal.Gen

variable {F : FTy → Type} [FloatOps F]
variable (m : (ℓ : Loc nD τ sig) → Buf (Elt F) ℓ) (ρ : Dev nD → PrngReg)

/-- From region 1's exit (`W8`) to the rectifier's result (`main_v51` at `W14`). -/
theorem agg1_new (c : Dev nD) :
    W14 m ρ c (Proc.devRef .tc main_v51)
      = meanRelu (takeRows (W8 m ρ c (Proc.devRef .tc main_v26)) (srcIdx (W8 m ρ c (Proc.devRef .tc main_arg2))))
          (dstIdx (W8 m ρ c (Proc.devRef .tc main_arg2))) (W8 m ρ c (Proc.devRef .tc main_arg7)) := by
  unfold W14 W13 W12 W11 W10 W9
  simp only [hostOps2, hostOps2_1, hostOps2_2, hostOps2_3, hostOps2_4, hostOps2_5]
  after_results_simp
  simp only [TRef.toBuf, TRef.ofBuf, cast_eq]
  rfl

end Cert.Mp

end
-- ==== Proof.AggNew2.lean ====
/-
  The host operations after a region, read as one function: what the stretch from a region's exit to the rectifier leaves in
  the round's result buffer is `meanRelu (takeRows …)` of the region's output array, the edge table and the bias as the
  stretch finds them. Each operation's result is read at its own buffer (the operations are straight-line, every buffer
  written once), and the composed term is the specification's, operation for operation.
  This module: aggregate 2 (round 2, the messages b → a).
-/
import proofs.«400287_j68238440398870_1_alg».proof.Proof.Gen.KernelIdeal.Frame
import proofs.«400287_j68238440398870_1_alg».proof.Proof.Spec
import Idealize.ShloMosaic.Lib.StableHlo.Run

set_option maxRecDepth 16384

noncomputable section

namespace Cert.Mp

open Idealize.ShloMosaic Idealize.ShloMosaic.TcCoe Idealize.ShloMosaic.StableHlo Cert.KernelIdeal Cert.KernelIdeal.Gen

variable {F : FTy → Type} [FloatOps F]
variable (m : (ℓ : Loc nD τ sig) → Buf (Elt F) ℓ) (ρ : Dev nD → PrngReg)

/-- From region 2's exit (`W16`) to the rectifier's result (`main_v79` at `W22`). -/
theorem agg2_new (c : Dev nD) :
    W22 m ρ c (Proc.devRef .tc main_v79)
      = meanRelu (takeRows (W16 m ρ c (Proc.devRef .tc main_v54)) (srcIdx (W16 m ρ c (Proc.devRef .tc main_arg3))))
          (dstIdx (W16 m ρ c (Proc.devRef .tc main_arg3))) (W16 m ρ c (Proc.devRef .tc main_arg6)) := by
  unfold W22 W21 W20 W19 W18 W17
  simp only [hostOps3, hostOps3_1, hostOps3_2, hostOps3_3, hostOps3_4, hostOps3_5]
  after_results_simp
  simp only [TRef.toBuf, TRef.ofBuf, cast_eq]
  rfl

end Cert.Mp

end
-- ==== Proof.AggNew3.lean ====
/-
  The host operations after a region, read as one function: what the stretch from a region's exit to the rectifier leaves in
  the round's result buffer is `meanRelu (takeRows …)` of the region's output array, the edge table and the bias as the
  stretch finds them. Each operation's result is read at its own buffer (the operations are straight-line, every buffer
  written once), and the composed term is the specification's, operation for operation.
  This module: aggregate 3 (round 2, the messages a → b).
-/
import proofs.«400287_j68238440398870_1_alg».proof.Proof.Gen.KernelIdeal.Frame
import proofs.«400287_j68238440398870_1_alg».proof.Proof.Spec
import Idealize.ShloMosaic.Lib.StableHlo.Run

set_option maxRecDepth 16384

noncomputable section

namespace Cert.Mp

open Idealize.ShloMosaic Idealize.ShloMosaic.TcCoe Idealize.ShloMosaic.StableHlo Cert.KernelIdeal Cert.KernelIdeal.Gen

variable {F : FTy → Type} [FloatOps F]
variable (m : (ℓ : Loc nD τ sig) → Buf (Elt F) ℓ) (ρ : Dev nD → PrngReg)

/-- From region 3's exit (`W23`) to the rectifier's result (`main_v105` at `W29`). -/
theorem agg3_new (c : Dev nD) :
    W29 m ρ c (Proc.devRef .tc main_v105)
      = meanRelu (takeRows (W23 m ρ c (Proc.devRef .tc main_v80)) (srcIdx (W23 m ρ c (Proc.devRef .tc main_arg2))))
          (dstIdx (W23 m ρ c (Proc.devRef .tc main_arg2))) (W23 m ρ c (Proc.devRef .tc main_arg7)) := by
  unfold W29 W28 W27 W26 W25 W24
  simp only [hostOps4, hostOps4_1, hostOps4_2, hostOps4_3, hostOps4_4, hostOps4_5]
  after_results_simp
  simp only [TRef.toBuf, TRef.ofBuf, cast_eq]
  rfl

end Cert.Mp

end
-- ==== Proof.AggNew4.lean ====
/-
  The host operations after a region, read as one function: what the stretch from a region's exit to the rectifier leaves in
  the round's result buffer is `meanRelu (takeRows …)` of the region's output array, the edge table and the bias as the
  stretch finds them. Each operation's result is read at its own buffer (the operations are straight-line, every buffer
  written once), and the composed term is the specification's, operation for operation.
  This module: aggregate 4 (round 3, the messages b → a).
-/
import proofs.«400287_j68238440398870_1_alg».proof.Proof.Gen.KernelIdeal.Frame
import proofs.«400287_j68238440398870_1_alg».proof.Proof.Spec
import Idealize.ShloMosaic.Lib.StableHlo.Run

set_option maxRecDepth 16384

noncomputable section

namespace Cert.Mp

open Idealize.ShloMosaic Idealize.ShloMosaic.TcCoe Idealize.ShloMosaic.StableHlo Cert.KernelIdeal Cert.KernelIdeal.Gen

variable {F : FTy → Type} [FloatOps F]
variable (m : (ℓ : Loc nD τ sig) → Buf (Elt F) ℓ) (ρ : Dev nD → PrngReg)

/-- From region 4's exit (`W31`) to the rectifier's result (`main_v133` at `W37`). -/
theorem agg4_new (c : Dev nD) :
    W37 m ρ c (Proc.devRef .tc main_v133)
      = meanRelu (takeRows (W31 m ρ c (Proc.devRef .tc main_v108)) (srcIdx (W31 m ρ c (Proc.devRef .tc main_arg3))))
          (dstIdx (W31 m ρ c (Proc.devRef .tc main_arg3))) (W31 m ρ c (Proc.devRef .tc main_arg6)) := by
  unfold W37 W36 W35 W34 W33 W32
  simp only [hostOps5, hostOps5_1, hostOps5_2, hostOps5_3, hostOps5_4, hostOps5_5]
  after_results_simp
  simp only [TRef.toBuf, TRef.ofBuf, cast_eq]
  rfl

end Cert.Mp

end
-- ==== Proof.AggNew5.lean ====
/-
  The host operations after a region, read as one function: what the stretch from a region's exit to the rectifier leaves in
  the round's result buffer is `meanRelu (takeRows …)` of the region's output array, the edge table and the bias as the
  stretch finds them. Each operation's result is read at its own buffer (the operations are straight-line, every buffer
  written once), and the composed term is the specification's, operation for operation.
  This module: aggregate 5 (round 3, the messages a → b).
-/
import proofs.«400287_j68238440398870_1_alg».proof.Proof.Gen.KernelIdeal.Frame
import proofs.«400287_j68238440398870_1_alg».proof.Proof.Spec
import Idealize.ShloMosaic.Lib.StableHlo.Run

set_option maxRecDepth 16384

noncomputable section

namespace Cert.Mp

open Idealize.ShloMosaic Idealize.ShloMosaic.TcCoe Idealize.ShloMosaic.StableHlo Cert.KernelIdeal Cert.KernelIdeal.Gen

variable {F : FTy → Type} [FloatOps F]
variable (m : (ℓ : Loc nD τ sig) → Buf (Elt F) ℓ) (ρ : Dev nD → PrngReg)

/-- From region 5's exit (`W38`) to the rectifier's result (`main_v159` at `W44`). -/
theorem agg5_new (c : Dev nD) :
    W44 m ρ c (Proc.devRef .tc main_v159)
      = meanRelu (takeRows (W38 m ρ c (Proc.devRef .tc main_v134)) (srcIdx (W38 m ρ c (Proc.devRef .tc main_arg2))))
          (dstIdx (W38 m ρ c (Proc.devRef .tc main_arg2))) (W38 m ρ c (Proc.devRef .tc main_arg7)) := by
  unfold W44 W43 W42 W41 W40 W39
  simp only [hostOps6, hostOps6_1, hostOps6_2, hostOps6_3, hostOps6_4, hostOps6_5]
  after_results_simp
  simp only [TRef.toBuf, TRef.ofBuf, cast_eq]
  rfl

end Cert.Mp

end
-- ==== Proof.FoldKeep.lean ====
import proofs.«400287_j68238440398870_1_alg».proof.Proof.Gen.KernelIdeal.Frame
import Idealize.ShloMosaic.Lib.StableHlo.Run

/-
  What the host stretches and the regions of @main leave alone.

  @main is six rounds of: a kernel region, then six stretches of host operations (one aggregate), with two additions after the
  second and after the fourth aggregate. Each host operation writes exactly one buffer, its result; so a buffer that is not
  the result of any operation of a stretch holds after the stretch what it held before it. Per aggregate the results of all
  its operations are gathered in one list, and a buffer outside the list is carried unchanged across the six stretches. A
  region writes its output array only: its two input windows' arrays are read and left at their entry contents, and a buffer
  that is none of its three arrays is untouched.
-/

set_option maxRecDepth 16384

noncomputable section

namespace Cert.Mp

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg) (c : Dev nD)

/-- The set an operation writes is the singleton of its result buffer, and the result is an entry of the list. -/
local macro "result_listed" : tactic =>
  `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)))

/-! ## Round 0 -/

/-- The buffers the host operations of aggregate 0 (the stretches after region 0) write: the result of every operation of
    its six stretches, in program order. -/
abbrev agg0_W : List (Ref sig .tc) :=
  [main_v1, main_v2, main_v3, main_v4, main_call0_c, main_call0_v0, main_call0_v1, main_call0_c_0, main_call0_v2,
   main_call0_v3, main_call0_v4, main_call0_v5, main_call0_c_1, main_call0_c_2, main_call0_v6, main_call0_v7,
   main_call0_v8, main_call0_v9, main_call0_v10, main_call0_v11, main_call0_c_3, main_call0_v12, main_call0_v13,
   main_call0_v14, main_call0_cst, main_call0_v15, main_v5, main_cst, main_v6, main_v7, main_v8, main_cst_0, main_v9,
   main_cst_1, main_v10, main_v11, main_v12, main_cst_2, main_v13, main_v14, main_v15, main_cst_3, main_v16,
   main_v17, main_v18, main_v19, main_v20, main_cst_4, main_call1_v0, main_call1_v1, main_call1_v2, main_v21,
   main_v22, main_v23, main_v24, main_call2_cst, main_call2_v0, main_v25]

private theorem w_hostOps1 :
    (hostOps1 : List (HloOp τ sig (Elt F))).Forall fun op => op.writes ⊆ ((agg0_W).map (Proc.devRef (τ := τ) .tc)).toFinset := by
  simp only [List.Forall]
  repeat' apply And.intro
  all_goals result_listed

private theorem w_hostOps1_1 :
    (hostOps1_1 : List (HloOp τ sig (Elt F))).Forall fun op => op.writes ⊆ ((agg0_W).map (Proc.devRef (τ := τ) .tc)).toFinset := by
  simp only [List.Forall]
  repeat' apply And.intro
  all_goals result_listed

private theorem w_hostOps1_2 :
    (hostOps1_2 : List (HloOp τ sig (Elt F))).Forall fun op => op.writes ⊆ ((agg0_W).map (Proc.devRef (τ := τ) .tc)).toFinset := by
  simp only [List.Forall]
  repeat' apply And.intro
  all_goals result_listed

private theorem w_hostOps1_3 :
    (hostOps1_3 : List (HloOp τ sig (Elt F))).Forall fun op => op.writes ⊆ ((agg0_W).map (Proc.devRef (τ := τ) .tc)).toFinset := by
  simp only [List.Forall]
  repeat' apply And.intro
  all_goals result_listed

private theorem w_hostOps1_4 :
    (hostOps1_4 : List (HloOp τ sig (Elt F))).Forall fun op => op.writes ⊆ ((agg0_W).map (Proc.devRef (τ := τ) .tc)).toFinset := by
  simp only [List.Forall]
  repeat' apply And.intro
  all_goals result_listed

private theorem w_hostOps1_5 :
    (hostOps1_5 : List (HloOp τ sig (Elt F))).Forall fun op => op.writes ⊆ ((agg0_W).map (Proc.devRef (τ := τ) .tc)).toFinset := by
  simp only [List.Forall]
  repeat' apply And.intro
  all_goals result_listed

/-- A buffer none of aggregate 0's six stretches writes holds after them what it held at region 0's exit: one step per
    stretch, the latest first. -/
theorem agg0_keep (r : Ref sig .tc) (h : r ∉ agg0_W) : W7 m ρ c (Proc.devRef .tc r) = W1 m ρ c (Proc.devRef .tc r) :=
  (StableHlo.after_of_writes_sub hostOps1_5 (W6 m ρ c) w_hostOps1_5 h).trans <|
  (StableHlo.after_of_writes_sub hostOps1_4 (W5 m ρ c) w_hostOps1_4 h).trans <|
  (StableHlo.after_of_writes_sub hostOps1_3 (W4 m ρ c) w_hostOps1_3 h).trans <|
  (StableHlo.after_of_writes_sub hostOps1_2 (W3 m ρ c) w_hostOps1_2 h).trans <|
  (StableHlo.after_of_writes_sub hostOps1_1 (W2 m ρ c) w_hostOps1_1 h).trans <|
  (StableHlo.after_of_writes_sub hostOps1 (W1 m ρ c) w_hostOps1 h)

/-- Region 0 leaves every buffer but its output array as it found it: an input window's array is read only (the
    pipeline leaves it at its entry contents), and a buffer that is none of the three arrays is not touched. -/
theorem region0_keep (r : Ref sig .tc) (h : r ≠ main_v0) : W1 m ρ c (Proc.devRef .tc r) = W0 m ρ c (Proc.devRef .tc r) := by
  by_cases h0 : r = Pipeline.arrRef spec0 0
  · subst h0
    exact (W1_arr m ρ c 0).trans (((dat0 (V0 m ρ) c).arrAt_in 0 rfl _).trans (A_eq0 (V0 m ρ) c 0))
  by_cases h1 : r = Pipeline.arrRef spec0 1
  · subst h1
    exact (W1_arr m ρ c 1).trans (((dat0 (V0 m ρ) c).arrAt_in 1 rfl _).trans (A_eq0 (V0 m ρ) c 1))
  have key : ∀ w : Fin 3, Pipeline.arrRef spec0 w ≠ r := fun
    | 0 => Ne.symm h0
    | 1 => Ne.symm h1
    | 2 => fun e => h (e.symm.trans (by decide))
    | ⟨_ + 3, hw⟩ => absurd hw (Nat.not_lt.2 (Nat.le_add_left _ _))
  exact W1_of_ne m ρ c r key

/-! ## Round 1 -/

/-- The buffers the host operations of aggregate 1 (the stretches after region 1) write: the result of every operation of
    its six stretches, in program order. -/
abbrev agg1_W : List (Ref sig .tc) :=
  [main_v27, main_v28, main_v29, main_v30, main_call3_c, main_call3_v0, main_call3_v1, main_call3_c_0, main_call3_v2,
   main_call3_v3, main_call3_v4, main_call3_v5, main_call3_c_1, main_call3_c_2, main_call3_v6, main_call3_v7,
   main_call3_v8, main_call3_v9, main_call3_v10, main_call3_v11, main_call3_c_3, main_call3_v12, main_call3_v13,
   main_call3_v14, main_call3_cst, main_call3_v15, main_v31, main_cst_5, main_v32, main_v33, main_v34, main_cst_6,
   main_v35, main_cst_7, main_v36, main_v37, main_v38, main_cst_8, main_v39, main_v40, main_v41, main_cst_9,
   main_v42, main_v43, main_v44, main_v45, main_v46, main_cst_10, main_call4_v0, main_call4_v1, main_call4_v2,
   main_v47, main_v48, main_v49, main_v50, main_call5_cst, main_call5_v0, main_v51]

private theorem w_hostOps2 :
    (hostOps2 : List (HloOp τ sig (Elt F))).Forall fun op => op.writes ⊆ ((agg1_W).map (Proc.devRef (τ := τ) .tc)).toFinset := by
  simp only [List.Forall]
  repeat' apply And.intro
  all_goals result_listed

private theorem w_hostOps2_1 :
    (hostOps2_1 : List (HloOp τ sig (Elt F))).Forall fun op => op.writes ⊆ ((agg1_W).map (Proc.devRef (τ := τ) .tc)).toFinset := by
  simp only [List.Forall]
  repeat' apply And.intro
  all_goals result_listed

private theorem w_hostOps2_2 :
    (hostOps2_2 : List (HloOp τ sig (Elt F))).Forall fun op => op.writes ⊆ ((agg1_W).map (Proc.devRef (τ := τ) .tc)).toFinset := by
  simp only [List.Forall]
  repeat' apply And.intro
  all_goals result_listed

private theorem w_hostOps2_3 :
    (hostOps2_3 : List (HloOp τ sig (Elt F))).Forall fun op => op.writes ⊆ ((agg1_W).map (Proc.devRef (τ := τ) .tc)).toFinset := by
  simp only [List.Forall]
  repeat' apply And.intro
  all_goals result_listed

private theorem w_hostOps2_4 :
    (hostOps2_4 : List (HloOp τ sig (Elt F))).Forall fun op => op.writes ⊆ ((agg1_W).map (Proc.devRef (τ := τ) .tc)).toFinset := by
  simp only [List.Forall]
  repeat' apply And.intro
  all_goals result_listed

private theorem w_hostOps2_5 :
    (hostOps2_5 : List (HloOp τ sig (Elt F))).Forall fun op => op.writes ⊆ ((agg1_W).map (Proc.devRef (τ := τ) .tc)).toFinset := by
  simp only [List.Forall]
  repeat' apply And.intro
  all_goals result_listed

/-- A buffer none of aggregate 1's six stretches writes holds after them what it held at region 1's exit: one step per
    stretch, the latest first. -/
theorem agg1_keep (r : Ref sig .tc) (h : r ∉ agg1_W) : W14 m ρ c (Proc.devRef .tc r) = W8 m ρ c (Proc.devRef .tc r) :=
  (StableHlo.after_of_writes_sub hostOps2_5 (W13 m ρ c) w_hostOps2_5 h).trans <|
  (StableHlo.after_of_writes_sub hostOps2_4 (W12 m ρ c) w_hostOps2_4 h).trans <|
  (StableHlo.after_of_writes_sub hostOps2_3 (W11 m ρ c) w_hostOps2_3 h).trans <|
  (StableHlo.after_of_writes_sub hostOps2_2 (W10 m ρ c) w_hostOps2_2 h).trans <|
  (StableHlo.after_of_writes_sub hostOps2_1 (W9 m ρ c) w_hostOps2_1 h).trans <|
  (StableHlo.after_of_writes_sub hostOps2 (W8 m ρ c) w_hostOps2 h)

/-- Region 1 leaves every buffer but its output array as it found it: an input window's array is read only (the
    pipeline leaves it at its entry contents), and a buffer that is none of the three arrays is not touched. -/
theorem region1_keep (r : Ref sig .tc) (h : r ≠ main_v26) : W8 m ρ c (Proc.devRef .tc r) = W7 m ρ c (Proc.devRef .tc r) := by
  by_cases h0 : r = Pipeline.arrRef spec1 0
  · subst h0
    exact (W8_arr m ρ c 0).trans (((dat1 (V7 m ρ) c).arrAt_in 0 rfl _).trans (A_eq1 (V7 m ρ) c 0))
  by_cases h1 : r = Pipeline.arrRef spec1 1
  · subst h1
    exact (W8_arr m ρ c 1).trans (((dat1 (V7 m ρ) c).arrAt_in 1 rfl _).trans (A_eq1 (V7 m ρ) c 1))
  have key : ∀ w : Fin 3, Pipeline.arrRef spec1 w ≠ r := fun
    | 0 => Ne.symm h0
    | 1 => Ne.symm h1
    | 2 => fun e => h (e.symm.trans (by decide))
    | ⟨_ + 3, hw⟩ => absurd hw (Nat.not_lt.2 (Nat.le_add_left _ _))
  exact W8_of_ne m ρ c r key

/-! ## Round 2 -/

/-- The buffers the host operations of aggregate 2 (the stretches after region 2) write: the result of every operation of
    its six stretches, in program order. -/
abbrev agg2_W : List (Ref sig .tc) :=
  [main_v55, main_v56, main_v57, main_v58, main_call6_c, main_call6_v0, main_call6_v1, main_call6_c_0, main_call6_v2,
   main_call6_v3, main_call6_v4, main_call6_v5, main_call6_c_1, main_call6_c_2, main_call6_v6, main_call6_v7,
   main_call6_v8, main_call6_v9, main_call6_v10, main_call6_v11, main_call6_c_3, main_call6_v12, main_call6_v13,
   main_call6_v14, main_call6_cst, main_call6_v15, main_v59, main_cst_11, main_v60, main_v61, main_v62, main_cst_12,
   main_v63, main_cst_13, main_v64, main_v65, main_v66, main_cst_14, main_v67, main_v68, main_v69, main_cst_15,
   main_v70, main_v71, main_v72, main_v73, main_v74, main_cst_16, main_call7_v0, main_call7_v1, main_call7_v2,
   main_v75, main_v76, main_v77, main_v78, main_call8_cst, main_call8_v0, main_v79]

private theorem w_hostOps3 :
    (hostOps3 : List (HloOp τ sig (Elt F))).Forall fun op => op.writes ⊆ ((agg2_W).map (Proc.devRef (τ := τ) .tc)).toFinset := by
  simp only [List.Forall]
  repeat' apply And.intro
  all_goals result_listed

private theorem w_hostOps3_1 :
    (hostOps3_1 : List (HloOp τ sig (Elt F))).Forall fun op => op.writes ⊆ ((agg2_W).map (Proc.devRef (τ := τ) .tc)).toFinset := by
  simp only [List.Forall]
  repeat' apply And.intro
  all_goals result_listed

private theorem w_hostOps3_2 :
    (hostOps3_2 : List (HloOp τ sig (Elt F))).Forall fun op => op.writes ⊆ ((agg2_W).map (Proc.devRef (τ := τ) .tc)).toFinset := by
  simp only [List.Forall]
  repeat' apply And.intro
  all_goals result_listed

private theorem w_hostOps3_3 :
    (hostOps3_3 : List (HloOp τ sig (Elt F))).Forall fun op => op.writes ⊆ ((agg2_W).map (Proc.devRef (τ := τ) .tc)).toFinset := by
  simp only [List.Forall]
  repeat' apply And.intro
  all_goals result_listed

private theorem w_hostOps3_4 :
    (hostOps3_4 : List (HloOp τ sig (Elt F))).Forall fun op => op.writes ⊆ ((agg2_W).map (Proc.devRef (τ := τ) .tc)).toFinset := by
  simp only [List.Forall]
  repeat' apply And.intro
  all_goals result_listed

private theorem w_hostOps3_5 :
    (hostOps3_5 : List (HloOp τ sig (Elt F))).Forall fun op => op.writes ⊆ ((agg2_W).map (Proc.devRef (τ := τ) .tc)).toFinset := by
  simp only [List.Forall]
  repeat' apply And.intro
  all_goals result_listed

/-- A buffer none of aggregate 2's six stretches writes holds after them what it held at region 2's exit: one step per
    stretch, the latest first. -/
theorem agg2_keep (r : Ref sig .tc) (h : r ∉ agg2_W) : W22 m ρ c (Proc.devRef .tc r) = W16 m ρ c (Proc.devRef .tc r) :=
  (StableHlo.after_of_writes_sub hostOps3_5 (W21 m ρ c) w_hostOps3_5 h).trans <|
  (StableHlo.after_of_writes_sub hostOps3_4 (W20 m ρ c) w_hostOps3_4 h).trans <|
  (StableHlo.after_of_writes_sub hostOps3_3 (W19 m ρ c) w_hostOps3_3 h).trans <|
  (StableHlo.after_of_writes_sub hostOps3_2 (W18 m ρ c) w_hostOps3_2 h).trans <|
  (StableHlo.after_of_writes_sub hostOps3_1 (W17 m ρ c) w_hostOps3_1 h).trans <|
  (StableHlo.after_of_writes_sub hostOps3 (W16 m ρ c) w_hostOps3 h)

/-- Region 2 leaves every buffer but its output array as it found it: an input window's array is read only (the
    pipeline leaves it at its entry contents), and a buffer that is none of the three arrays is not touched. -/
theorem region2_keep (r : Ref sig .tc) (h : r ≠ main_v54) : W16 m ρ c (Proc.devRef .tc r) = W15 m ρ c (Proc.devRef .tc r) := by
  by_cases h0 : r = Pipeline.arrRef spec2 0
  · subst h0
    exact (W16_arr m ρ c 0).trans (((dat2 (V15 m ρ) c).arrAt_in 0 rfl _).trans (A_eq2 (V15 m ρ) c 0))
  by_cases h1 : r = Pipeline.arrRef spec2 1
  · subst h1
    exact (W16_arr m ρ c 1).trans (((dat2 (V15 m ρ) c).arrAt_in 1 rfl _).trans (A_eq2 (V15 m ρ) c 1))
  have key : ∀ w : Fin 3, Pipeline.arrRef spec2 w ≠ r := fun
    | 0 => Ne.symm h0
    | 1 => Ne.symm h1
    | 2 => fun e => h (e.symm.trans (by decide))
    | ⟨_ + 3, hw⟩ => absurd hw (Nat.not_lt.2 (Nat.le_add_left _ _))
  exact W16_of_ne m ρ c r key

/-! ## Round 3 -/

/-- The buffers the host operations of aggregate 3 (the stretches after region 3) write: the result of every operation of
    its six stretches, in program order. -/
abbrev agg3_W : List (Ref sig .tc) :=
  [main_v81, main_v82, main_v83, main_v84, main_call9_c, main_call9_v0, main_call9_v1, main_call9_c_0, main_call9_v2,
   main_call9_v3, main_call9_v4, main_call9_v5, main_call9_c_1, main_call9_c_2, main_call9_v6, main_call9_v7,
   main_call9_v8, main_call9_v9, main_call9_v10, main_call9_v11, main_call9_c_3, main_call9_v12, main_call9_v13,
   main_call9_v14, main_call9_cst, main_call9_v15, main_v85, main_cst_17, main_v86, main_v87, main_v88, main_cst_18,
   main_v89, main_cst_19, main_v90, main_v91, main_v92, main_cst_20, main_v93, main_v94, main_v95, main_cst_21,
   main_v96, main_v97, main_v98, main_v99, main_v100, main_cst_22, main_call10_v0, main_call10_v1, main_call10_v2,
   main_v101, main_v102, main_v103, main_v104, main_call11_cst, main_call11_v0, main_v105]

private theorem w_hostOps4 :
    (hostOps4 : List (HloOp τ sig (Elt F))).Forall fun op => op.writes ⊆ ((agg3_W).map (Proc.devRef (τ := τ) .tc)).toFinset := by
  simp only [List.Forall]
  repeat' apply And.intro
  all_goals result_listed

private theorem w_hostOps4_1 :
    (hostOps4_1 : List (HloOp τ sig (Elt F))).Forall fun op => op.writes ⊆ ((agg3_W).map (Proc.devRef (τ := τ) .tc)).toFinset := by
  simp only [List.Forall]
  repeat' apply And.intro
  all_goals result_listed

private theorem w_hostOps4_2 :
    (hostOps4_2 : List (HloOp τ sig (Elt F))).Forall fun op => op.writes ⊆ ((agg3_W).map (Proc.devRef (τ := τ) .tc)).toFinset := by
  simp only [List.Forall]
  repeat' apply And.intro
  all_goals result_listed

private theorem w_hostOps4_3 :
    (hostOps4_3 : List (HloOp τ sig (Elt F))).Forall fun op => op.writes ⊆ ((agg3_W).map (Proc.devRef (τ := τ) .tc)).toFinset := by
  simp only [List.Forall]
  repeat' apply And.intro
  all_goals result_listed

private theorem w_hostOps4_4 :
    (hostOps4_4 : List (HloOp τ sig (Elt F))).Forall fun op => op.writes ⊆ ((agg3_W).map (Proc.devRef (τ := τ) .tc)).toFinset := by
  simp only [List.Forall]
  repeat' apply And.intro
  all_goals result_listed

private theorem w_hostOps4_5 :
    (hostOps4_5 : List (HloOp τ sig (Elt F))).Forall fun op => op.writes ⊆ ((agg3_W).map (Proc.devRef (τ := τ) .tc)).toFinset := by
  simp only [List.Forall]
  repeat' apply And.intro
  all_goals result_listed

/-- A buffer none of aggregate 3's six stretches writes holds after them what it held at region 3's exit: one step per
    stretch, the latest first. -/
theorem agg3_keep (r : Ref sig .tc) (h : r ∉ agg3_W) : W29 m ρ c (Proc.devRef .tc r) = W23 m ρ c (Proc.devRef .tc r) :=
  (StableHlo.after_of_writes_sub hostOps4_5 (W28 m ρ c) w_hostOps4_5 h).trans <|
  (StableHlo.after_of_writes_sub hostOps4_4 (W27 m ρ c) w_hostOps4_4 h).trans <|
  (StableHlo.after_of_writes_sub hostOps4_3 (W26 m ρ c) w_hostOps4_3 h).trans <|
  (StableHlo.after_of_writes_sub hostOps4_2 (W25 m ρ c) w_hostOps4_2 h).trans <|
  (StableHlo.after_of_writes_sub hostOps4_1 (W24 m ρ c) w_hostOps4_1 h).trans <|
  (StableHlo.after_of_writes_sub hostOps4 (W23 m ρ c) w_hostOps4 h)

/-- Region 3 leaves every buffer but its output array as it found it: an input window's array is read only (the
    pipeline leaves it at its entry contents), and a buffer that is none of the three arrays is not touched. -/
theorem region3_keep (r : Ref sig .tc) (h : r ≠ main_v80) : W23 m ρ c (Proc.devRef .tc r) = W22 m ρ c (Proc.devRef .tc r) := by
  by_cases h0 : r = Pipeline.arrRef spec3 0
  · subst h0
    exact (W23_arr m ρ c 0).trans (((dat3 (V22 m ρ) c).arrAt_in 0 rfl _).trans (A_eq3 (V22 m ρ) c 0))
  by_cases h1 : r = Pipeline.arrRef spec3 1
  · subst h1
    exact (W23_arr m ρ c 1).trans (((dat3 (V22 m ρ) c).arrAt_in 1 rfl _).trans (A_eq3 (V22 m ρ) c 1))
  have key : ∀ w : Fin 3, Pipeline.arrRef spec3 w ≠ r := fun
    | 0 => Ne.symm h0
    | 1 => Ne.symm h1
    | 2 => fun e => h (e.symm.trans (by decide))
    | ⟨_ + 3, hw⟩ => absurd hw (Nat.not_lt.2 (Nat.le_add_left _ _))
  exact W23_of_ne m ρ c r key

/-! ## Round 4 -/

/-- The buffers the host operations of aggregate 4 (the stretches after region 4) write: the result of every operation of
    its six stretches, in program order. -/
abbrev agg4_W : List (Ref sig .tc) :=
  [main_v109, main_v110, main_v111, main_v112, main_call12_c, main_call12_v0, main_call12_v1, main_call12_c_0,
   main_call12_v2, main_call12_v3, main_call12_v4, main_call12_v5, main_call12_c_1, main_call12_c_2, main_call12_v6,
   main_call12_v7, main_call12_v8, main_call12_v9, main_call12_v10, main_call12_v11, main_call12_c_3,
   main_call12_v12, main_call12_v13, main_call12_v14, main_call12_cst, main_call12_v15, main_v113, main_cst_23,
   main_v114, main_v115, main_v116, main_cst_24, main_v117, main_cst_25, main_v118, main_v119, main_v120,
   main_cst_26, main_v121, main_v122, main_v123, main_cst_27, main_v124, main_v125, main_v126, main_v127, main_v128,
   main_cst_28, main_call13_v0, main_call13_v1, main_call13_v2, main_v129, main_v130, main_v131, main_v132,
   main_call14_cst, main_call14_v0, main_v133]

private theorem w_hostOps5 :
    (hostOps5 : List (HloOp τ sig (Elt F))).Forall fun op => op.writes ⊆ ((agg4_W).map (Proc.devRef (τ := τ) .tc)).toFinset := by
  simp only [List.Forall]
  repeat' apply And.intro
  all_goals result_listed

private theorem w_hostOps5_1 :
    (hostOps5_1 : List (HloOp τ sig (Elt F))).Forall fun op => op.writes ⊆ ((agg4_W).map (Proc.devRef (τ := τ) .tc)).toFinset := by
  simp only [List.Forall]
  repeat' apply And.intro
  all_goals result_listed

private theorem w_hostOps5_2 :
    (hostOps5_2 : List (HloOp τ sig (Elt F))).Forall fun op => op.writes ⊆ ((agg4_W).map (Proc.devRef (τ := τ) .tc)).toFinset := by
  simp only [List.Forall]
  repeat' apply And.intro
  all_goals result_listed

private theorem w_hostOps5_3 :
    (hostOps5_3 : List (HloOp τ sig (Elt F))).Forall fun op => op.writes ⊆ ((agg4_W).map (Proc.devRef (τ := τ) .tc)).toFinset := by
  simp only [List.Forall]
  repeat' apply And.intro
  all_goals result_listed

private theorem w_hostOps5_4 :
    (hostOps5_4 : List (HloOp τ sig (Elt F))).Forall fun op => op.writes ⊆ ((agg4_W).map (Proc.devRef (τ := τ) .tc)).toFinset := by
  simp only [List.Forall]
  repeat' apply And.intro
  all_goals result_listed

private theorem w_hostOps5_5 :
    (hostOps5_5 : List (HloOp τ sig (Elt F))).Forall fun op => op.writes ⊆ ((agg4_W).map (Proc.devRef (τ := τ) .tc)).toFinset := by
  simp only [List.Forall]
  repeat' apply And.intro
  all_goals result_listed

/-- A buffer none of aggregate 4's six stretches writes holds after them what it held at region 4's exit: one step per
    stretch, the latest first. -/
theorem agg4_keep (r : Ref sig .tc) (h : r ∉ agg4_W) : W37 m ρ c (Proc.devRef .tc r) = W31 m ρ c (Proc.devRef .tc r) :=
  (StableHlo.after_of_writes_sub hostOps5_5 (W36 m ρ c) w_hostOps5_5 h).trans <|
  (StableHlo.after_of_writes_sub hostOps5_4 (W35 m ρ c) w_hostOps5_4 h).trans <|
  (StableHlo.after_of_writes_sub hostOps5_3 (W34 m ρ c) w_hostOps5_3 h).trans <|
  (StableHlo.after_of_writes_sub hostOps5_2 (W33 m ρ c) w_hostOps5_2 h).trans <|
  (StableHlo.after_of_writes_sub hostOps5_1 (W32 m ρ c) w_hostOps5_1 h).trans <|
  (StableHlo.after_of_writes_sub hostOps5 (W31 m ρ c) w_hostOps5 h)

/-- Region 4 leaves every buffer but its output array as it found it: an input window's array is read only (the
    pipeline leaves it at its entry contents), and a buffer that is none of the three arrays is not touched. -/
theorem region4_keep (r : Ref sig .tc) (h : r ≠ main_v108) : W31 m ρ c (Proc.devRef .tc r) = W30 m ρ c (Proc.devRef .tc r) := by
  by_cases h0 : r = Pipeline.arrRef spec4 0
  · subst h0
    exact (W31_arr m ρ c 0).trans (((dat4 (V30 m ρ) c).arrAt_in 0 rfl _).trans (A_eq4 (V30 m ρ) c 0))
  by_cases h1 : r = Pipeline.arrRef spec4 1
  · subst h1
    exact (W31_arr m ρ c 1).trans (((dat4 (V30 m ρ) c).arrAt_in 1 rfl _).trans (A_eq4 (V30 m ρ) c 1))
  have key : ∀ w : Fin 3, Pipeline.arrRef spec4 w ≠ r := fun
    | 0 => Ne.symm h0
    | 1 => Ne.symm h1
    | 2 => fun e => h (e.symm.trans (by decide))
    | ⟨_ + 3, hw⟩ => absurd hw (Nat.not_lt.2 (Nat.le_add_left _ _))
  exact W31_of_ne m ρ c r key

/-! ## Round 5 -/

/-- The buffers the host operations of aggregate 5 (the stretches after region 5) write: the result of every operation of
    its six stretches, in program order. -/
abbrev agg5_W : List (Ref sig .tc) :=
  [main_v135, main_v136, main_v137, main_v138, main_call15_c, main_call15_v0, main_call15_v1, main_call15_c_0,
   main_call15_v2, main_call15_v3, main_call15_v4, main_call15_v5, main_call15_c_1, main_call15_c_2, main_call15_v6,
   main_call15_v7, main_call15_v8, main_call15_v9, main_call15_v10, main_call15_v11, main_call15_c_3,
   main_call15_v12, main_call15_v13, main_call15_v14, main_call15_cst, main_call15_v15, main_v139, main_cst_29,
   main_v140, main_v141, main_v142, main_cst_30, main_v143, main_cst_31, main_v144, main_v145, main_v146,
   main_cst_32, main_v147, main_v148, main_v149, main_cst_33, main_v150, main_v151, main_v152, main_v153, main_v154,
   main_cst_34, main_call16_v0, main_call16_v1, main_call16_v2, main_v155, main_v156, main_v157, main_v158,
   main_call17_cst, main_call17_v0, main_v159]

private theorem w_hostOps6 :
    (hostOps6 : List (HloOp τ sig (Elt F))).Forall fun op => op.writes ⊆ ((agg5_W).map (Proc.devRef (τ := τ) .tc)).toFinset := by
  simp only [List.Forall]
  repeat' apply And.intro
  all_goals result_listed

private theorem w_hostOps6_1 :
    (hostOps6_1 : List (HloOp τ sig (Elt F))).Forall fun op => op.writes ⊆ ((agg5_W).map (Proc.devRef (τ := τ) .tc)).toFinset := by
  simp only [List.Forall]
  repeat' apply And.intro
  all_goals result_listed

private theorem w_hostOps6_2 :
    (hostOps6_2 : List (HloOp τ sig (Elt F))).Forall fun op => op.writes ⊆ ((agg5_W).map (Proc.devRef (τ := τ) .tc)).toFinset := by
  simp only [List.Forall]
  repeat' apply And.intro
  all_goals result_listed

private theorem w_hostOps6_3 :
    (hostOps6_3 : List (HloOp τ sig (Elt F))).Forall fun op => op.writes ⊆ ((agg5_W).map (Proc.devRef (τ := τ) .tc)).toFinset := by
  simp only [List.Forall]
  repeat' apply And.intro
  all_goals result_listed

private theorem w_hostOps6_4 :
    (hostOps6_4 : List (HloOp τ sig (Elt F))).Forall fun op => op.writes ⊆ ((agg5_W).map (Proc.devRef (τ := τ) .tc)).toFinset := by
  simp only [List.Forall]
  repeat' apply And.intro
  all_goals result_listed

private theorem w_hostOps6_5 :
    (hostOps6_5 : List (HloOp τ sig (Elt F))).Forall fun op => op.writes ⊆ ((agg5_W).map (Proc.devRef (τ := τ) .tc)).toFinset := by
  simp only [List.Forall]
  repeat' apply And.intro
  all_goals result_listed

/-- A buffer none of aggregate 5's six stretches writes holds after them what it held at region 5's exit: one step per
    stretch, the latest first. -/
theorem agg5_keep (r : Ref sig .tc) (h : r ∉ agg5_W) : W44 m ρ c (Proc.devRef .tc r) = W38 m ρ c (Proc.devRef .tc r) :=
  (StableHlo.after_of_writes_sub hostOps6_5 (W43 m ρ c) w_hostOps6_5 h).trans <|
  (StableHlo.after_of_writes_sub hostOps6_4 (W42 m ρ c) w_hostOps6_4 h).trans <|
  (StableHlo.after_of_writes_sub hostOps6_3 (W41 m ρ c) w_hostOps6_3 h).trans <|
  (StableHlo.after_of_writes_sub hostOps6_2 (W40 m ρ c) w_hostOps6_2 h).trans <|
  (StableHlo.after_of_writes_sub hostOps6_1 (W39 m ρ c) w_hostOps6_1 h).trans <|
  (StableHlo.after_of_writes_sub hostOps6 (W38 m ρ c) w_hostOps6 h)

/-- Region 5 leaves every buffer but its output array as it found it: an input window's array is read only (the
    pipeline leaves it at its entry contents), and a buffer that is none of the three arrays is not touched. -/
theorem region5_keep (r : Ref sig .tc) (h : r ≠ main_v134) : W38 m ρ c (Proc.devRef .tc r) = W37 m ρ c (Proc.devRef .tc r) := by
  by_cases h0 : r = Pipeline.arrRef spec5 0
  · subst h0
    exact (W38_arr m ρ c 0).trans (((dat5 (V37 m ρ) c).arrAt_in 0 rfl _).trans (A_eq5 (V37 m ρ) c 0))
  by_cases h1 : r = Pipeline.arrRef spec5 1
  · subst h1
    exact (W38_arr m ρ c 1).trans (((dat5 (V37 m ρ) c).arrAt_in 1 rfl _).trans (A_eq5 (V37 m ρ) c 1))
  have key : ∀ w : Fin 3, Pipeline.arrRef spec5 w ≠ r := fun
    | 0 => Ne.symm h0
    | 1 => Ne.symm h1
    | 2 => fun e => h (e.symm.trans (by decide))
    | ⟨_ + 3, hw⟩ => absurd hw (Nat.not_lt.2 (Nat.le_add_left _ _))
  exact W38_of_ne m ρ c r key

/-! ## The additions between rounds -/

private theorem w_hostOps2_6 :
    (hostOps2_6 : List (HloOp τ sig (Elt F))).Forall fun op => op.writes ⊆ (([main_v52, main_v53] : List (Ref sig .tc)).map (Proc.devRef (τ := τ) .tc)).toFinset := by
  simp only [List.Forall]
  repeat' apply And.intro
  all_goals result_listed

/-- The two additions after aggregate 1 write only their results. -/
theorem adds1_keep (r : Ref sig .tc) (h : r ∉ ([main_v52, main_v53] : List (Ref sig .tc))) : W15 m ρ c (Proc.devRef .tc r) = W14 m ρ c (Proc.devRef .tc r) :=
  StableHlo.after_of_writes_sub hostOps2_6 (W14 m ρ c) w_hostOps2_6 h

private theorem w_hostOps4_6 :
    (hostOps4_6 : List (HloOp τ sig (Elt F))).Forall fun op => op.writes ⊆ (([main_v106, main_v107] : List (Ref sig .tc)).map (Proc.devRef (τ := τ) .tc)).toFinset := by
  simp only [List.Forall]
  repeat' apply And.intro
  all_goals result_listed

/-- The two additions after aggregate 3 write only their results. -/
theorem adds3_keep (r : Ref sig .tc) (h : r ∉ ([main_v106, main_v107] : List (Ref sig .tc))) : W30 m ρ c (Proc.devRef .tc r) = W29 m ρ c (Proc.devRef .tc r) :=
  StableHlo.after_of_writes_sub hostOps4_6 (W29 m ρ c) w_hostOps4_6 h

end Cert.Mp

end
-- ==== Proof.RegionLemmas.lean ====
/-
  The matrix product read entry by entry, at the ideal values: the kernel body's product of one [5000,128] block by the
  [128,128] matrix, and the whole [100000,128] product `mm`, each as the sum over the contracted coordinate of the
  products of the entries. Every pallas_call region of the program computes the first and is compared with the second.
-/
import proofs.«400287_j68238440398870_1_alg».proof.Proof.Spec
import proofs.«400287_j68238440398870_1_alg».proof.Proof.Gen.KernelIdeal
import Idealize.ShloMosaic.PureOps.Ideal
import Idealize.ShloMosaic.Lib.KernelVsHost
import Idealize.ShloMosaic.Lib.StackMember

noncomputable section

namespace Cert.Mp.Mat

open Idealize.ShloMosaic Idealize.ShloMosaic.ValueIdx Cert.KernelIdeal

/-- The zero offsets of a block that is its whole buffer. -/
theorem hz : (![0, 0] : Fin 2 → Nat) = fun _ => 0 := funext fun a => by fin_cases a <;> rfl

/-- The printed contraction record is the plain one, rows by columns: contract the left operand's axis 1 with the right
    operand's axis 0, no batch axes. -/
theorem dims_eq : dot_S5000x128_S128x128_S5000x128_1_0_0_1_n_n = DotDims.plain 5000 128 128 := rfl

/-- The body's product read at an entry: both operands narrowed to bf16 (at the ideal values a change of float format
    is the identity), accumulated into a zero block (so it is the product alone): the sum over k of x(p,k) · w(k,q). -/
theorem blockProduct_apply (x : FVec Ideal S5000x128 .f32) (w : FVec Ideal S128x128 .f32)
    (h1 h2 : FTy.bits .bf16 < FTy.bits .f32) (p : Fin 5000) (q : Fin 128) :
    matmul dot_S5000x128_S128x128_S5000x128_1_0_0_1_n_n none (truncf .bf16 x h1) (truncf .bf16 w h2)
      (constant (F := Ideal) S5000x128 .f32 0x00000000#32) (ix2 p q) = ∑ k : Fin 128, x (ix2 p k) * w (ix2 k q) := by
  rw [matmul_zero_eq_dotGeneral, dims_eq, StackMember.dotGeneral_plain_apply]
  rfl

/-- The whole product read at an entry: the sum over k of X(r,k) · W(k,q). -/
theorem mm_apply (X : FVec Ideal S100000x128 .f32) (W : FVec Ideal S128x128 .f32) (r : Fin 100000) (q : Fin 128) :
    mm (F := Ideal) X W (ix2 r q) = ∑ k : Fin 128, X (ix2 r k) * W (ix2 k q) := by
  unfold mm
  rw [StackMember.dotGeneral_plain_apply]

end Cert.Mp.Mat

end
-- ==== Proof.RegionValue0.lean ====
/-
  The value of pallas_call region 0 at the ideal values: the array the region leaves in its output window is the matrix
  product `mm` of the two arrays it reads.
-/
import proofs.«400287_j68238440398870_1_alg».proof.Proof.Gen.KernelIdeal.Frame
import proofs.«400287_j68238440398870_1_alg».proof.Proof.Spec
import proofs.«400287_j68238440398870_1_alg».proof.Proof.RegionLemmas
import Idealize.ShloMosaic.PureOps.Ideal
import Idealize.ShloMosaic.Lib.Pipeline.Value
import Idealize.ShloMosaic.Lib.KernelVsHost

noncomputable section

namespace Cert.Mp

open Idealize.ShloMosaic Idealize.ShloMosaic.TcCoe Cert.KernelIdeal Cert.KernelIdeal.Gen
open Idealize.ShloMosaic.ValueIdx

variable (V : (c : Dev nD) → (b : Ref sig .tc) → Buf (Elt Ideal) ((c : Thread nD τ).loc b)) (c : Dev nD)

/-! # The value of pallas_call region 0: the product of the two arrays it reads

  The region runs the matmul body on a grid of 20 points. Point `t` reads rows 5000·t … 5000·t + 4999 of the left array
  (a [5000,128] block), the whole [128,128] right array, and writes their product to the same rows of the output array.
  So the output array ends as the whole product `mm`: entry (r, q) of either is the sum over k of X(r,k) · W(k,q). -/

/-- The printed index maps, decided over the grid: the left operand's window moves with the output's along the rows and
    sits at column block 0; the right operand's window stays at block (0, 0); the output's row block is the point's own
    number, its column block 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The body's payload read at an entry: the sum over k of x(p,k) · w(k,q) of the two blocks it loaded (a reshape of a
    block to its own shape, where the body has one, is the identity). -/
theorem pay_apply0 (x : Vec Ideal S5000x128 .f32) (w : Vec Ideal S128x128 .f32) (p : Fin 5000) (q : Fin 128) :
    (k0_pay1 (F := Ideal) x w : FVec Ideal S5000x128 .f32) (ix2 p q) = ∑ k : Fin 128, x (ix2 p k) * w (ix2 k q) := by
  unfold k0_pay1
  first
  | (rw [shapeCast_self]; exact Mat.blockProduct_apply x w _ _ p q)
  | exact Mat.blockProduct_apply x w _ _ p q

/-- Entry (p, q) of what point `t` computes is the whole product's entry at the place of the array that entry is written
    back to, row 5000·t + p and column q: both are the same sum, the left block's row p being the left array's row
    5000·t + p and the right block being the right array. -/
theorem entry0 (t : Fin cfg0.N) (p : Fin 5000) (q : Fin 128) :
    (k0_pay1 (F := Ideal) (iblk0 V c 0 t) (iblk0 V c 1 t) : FVec Ideal S5000x128 .f32) (ix2 p q)
      = mm (F := Ideal) (V c (Pipeline.arrRef spec0 0)) (V c (Pipeline.arrRef spec0 1)) (((cfg0.win 2).blk t).view.emb (ix2 p q)) := by
  obtain ⟨e0, e1, e2, e3, e4, e5⟩ := idx_facts0 t
  have hN : cfg0.N = 20 := N_0
  have ht : t.val < 20 := hN ▸ t.isLt
  have hr : t.val * 5000 + p.val < 100000 := by have := p.isLt; omega
  rw [pay_apply0]
  -- where the entry lands in the output array
  have h2 : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [h2, Mat.mm_apply]
  refine Finset.sum_congr rfl fun k _ => ?_
  -- where the left block's entry (p, k) and the right block's entry (k, q) sit in their arrays
  have h0 : ((cfg0.win 0).blk t).view.emb (ix2 p k) = ix2 (⟨t.val * 5000 + p.val, hr⟩ : Fin 100000) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hx : (iblk0 V c 0 t : FVec Ideal S5000x128 .f32) (ix2 p k)
      = (V c (Pipeline.arrRef spec0 0) : FVec Ideal S100000x128 .f32) (ix2 (⟨t.val * 5000 + p.val, hr⟩ : Fin 100000) k) := by
    show V c (Pipeline.arrRef spec0 0) (((cfg0.win 0).blk t).view.emb (ix2 p k)) = _
    rw [h0]
  have hw : (iblk0 V c 1 t : FVec Ideal S128x128 .f32) (ix2 k q)
      = (V c (Pipeline.arrRef spec0 1) : FVec Ideal S128x128 .f32) (ix2 k q) := by
    show V c (Pipeline.arrRef spec0 1) (((cfg0.win 1).blk t).view.emb (ix2 k q)) = _
    rw [h1]
  rw [hx, hw]

/-- What point `t` writes back is block `t` of the whole product of the two arrays as the region finds them: the body's
    one store fills the output's buffer with its payload of the two loaded blocks, entry by entry `entry0`. -/
theorem flushed_eq0 (t : Fin cfg0.N) :
    (dat0 (F := Ideal) V c).flushed 2 t = ((cfg0.win 2).blk t).view.read (Elt Ideal)
      (mm (F := Ideal) (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero Mat.hz]
  simp only [View.ld_unit_zero (S := S5000x128) Mat.hz, View.ld_unit_zero (S := S128x128) Mat.hz]
  funext j
  obtain ⟨p, q, rfl⟩ : ∃ (p : Fin 5000) (q : Fin 128), j = ix2 p q := ⟨j 0, j 1, eq_ix2 j⟩
  exact entry0 V c t p q

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- The twenty blocks tile the output array: row `r` lies in the block of point `r / 5000`, and every point writes back. -/
theorem cover0 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  have hlt : (i 0).val / 5000 < cfg0.N := by rw [hN]; omega
  refine ⟨⟨(i 0).val / 5000, hlt⟩, flush0_2 _, ?_⟩
  obtain ⟨e0, e1, e2, e3, e4, e5⟩ := idx_facts0 ⟨(i 0).val / 5000, hlt⟩
  have e4' : win0_2.index ⟨(i 0).val / 5000, hlt⟩ (0 : Fin 2) = (i 0).val / 5000 := e4
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

/-- The array region 0 leaves in its output window is the product of the two arrays it read: every point writes the
    product's own block, and the blocks cover the array. -/
theorem region0_value : (dat0 (F := Ideal) V c).arrAt 2 cfg0.N = mm (F := Ideal) (V c (Pipeline.arrRef spec0 0)) (V c (Pipeline.arrRef spec0 1)) :=
  (dat0 (F := Ideal) V c).arrAt_eq_of_cover 2 _ (fun t _ => flushed_eq0 V c t) cover0

end Cert.Mp

end
-- ==== Proof.RegionValue1.lean ====
/-
  The value of pallas_call region 1 at the ideal values: the array the region leaves in its output window is the matrix
  product `mm` of the two arrays it reads.
-/
import proofs.«400287_j68238440398870_1_alg».proof.Proof.Gen.KernelIdeal.Frame
import proofs.«400287_j68238440398870_1_alg».proof.Proof.Spec
import proofs.«400287_j68238440398870_1_alg».proof.Proof.RegionLemmas
import Idealize.ShloMosaic.PureOps.Ideal
import Idealize.ShloMosaic.Lib.Pipeline.Value
import Idealize.ShloMosaic.Lib.KernelVsHost

noncomputable section

namespace Cert.Mp

open Idealize.ShloMosaic Idealize.ShloMosaic.TcCoe Cert.KernelIdeal Cert.KernelIdeal.Gen
open Idealize.ShloMosaic.ValueIdx

variable (V : (c : Dev nD) → (b : Ref sig .tc) → Buf (Elt Ideal) ((c : Thread nD τ).loc b)) (c : Dev nD)

/-! # The value of pallas_call region 1: the product of the two arrays it reads

  The region runs the matmul body on a grid of 20 points. Point `t` reads rows 5000·t … 5000·t + 4999 of the left array
  (a [5000,128] block), the whole [128,128] right array, and writes their product to the same rows of the output array.
  So the output array ends as the whole product `mm`: entry (r, q) of either is the sum over k of X(r,k) · W(k,q). -/

/-- The printed index maps, decided over the grid: the left operand's window moves with the output's along the rows and
    sits at column block 0; the right operand's window stays at block (0, 0); the output's row block is the point's own
    number, its column block 0. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The body's payload read at an entry: the sum over k of x(p,k) · w(k,q) of the two blocks it loaded (a reshape of a
    block to its own shape, where the body has one, is the identity). -/
theorem pay_apply1 (x : Vec Ideal S5000x128 .f32) (w : Vec Ideal S128x128 .f32) (p : Fin 5000) (q : Fin 128) :
    (k1_pay1 (F := Ideal) x w : FVec Ideal S5000x128 .f32) (ix2 p q) = ∑ k : Fin 128, x (ix2 p k) * w (ix2 k q) := by
  unfold k1_pay1
  first
  | (rw [shapeCast_self]; exact Mat.blockProduct_apply x w _ _ p q)
  | exact Mat.blockProduct_apply x w _ _ p q

/-- Entry (p, q) of what point `t` computes is the whole product's entry at the place of the array that entry is written
    back to, row 5000·t + p and column q: both are the same sum, the left block's row p being the left array's row
    5000·t + p and the right block being the right array. -/
theorem entry1 (t : Fin cfg1.N) (p : Fin 5000) (q : Fin 128) :
    (k1_pay1 (F := Ideal) (iblk1 V c 0 t) (iblk1 V c 1 t) : FVec Ideal S5000x128 .f32) (ix2 p q)
      = mm (F := Ideal) (V c (Pipeline.arrRef spec1 0)) (V c (Pipeline.arrRef spec1 1)) (((cfg1.win 2).blk t).view.emb (ix2 p q)) := by
  obtain ⟨e0, e1, e2, e3, e4, e5⟩ := idx_facts1 t
  have hN : cfg1.N = 20 := N_1
  have ht : t.val < 20 := hN ▸ t.isLt
  have hr : t.val * 5000 + p.val < 100000 := by have := p.isLt; omega
  rw [pay_apply1]
  -- where the entry lands in the output array
  have h2 : ((cfg1.win 2).blk t).view.emb (ix2 p q) = ix2 (⟨t.val * 5000 + p.val, hr⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [h2, Mat.mm_apply]
  refine Finset.sum_congr rfl fun k _ => ?_
  -- where the left block's entry (p, k) and the right block's entry (k, q) sit in their arrays
  have h0 : ((cfg1.win 0).blk t).view.emb (ix2 p k) = ix2 (⟨t.val * 5000 + p.val, hr⟩ : Fin 100000) k := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ((cfg1.win 1).blk t).view.emb (ix2 k q) = ix2 k q := by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have hx : (iblk1 V c 0 t : FVec Ideal S5000x128 .f32) (ix2 p k)
      = (V c (Pipeline.arrRef spec1 0) : FVec Ideal S100000x128 .f32) (ix2 (⟨t.val * 5000 + p.val, hr⟩ : Fin 100000) k) := by
    show V c (Pipeline.arrRef spec1 0) (((cfg1.win 0).blk t).view.emb (ix2 p k)) = _
    rw [h0]
  have hw : (iblk1 V c 1 t : FVec Ideal S128x128 .f32) (ix2 k q)
      = (V c (Pipeline.arrRef spec1 1) : FVec Ideal S128x128 .f32) (ix2 k q) := by
    show V c (Pipeline.arrRef spec1 1) (((cfg1.win 1).blk t).view.emb (ix2 k q)) = _
    rw [h1]
  rw [hx, hw]

/-- What point `t` writes back is block `t` of the whole product of the two arrays as the region finds them: the body's
    one store fills the output's buffer with its payload of the two loaded blocks, entry by entry `entry1`. -/
theorem flushed_eq1 (t : Fin cfg1.N) :
    (dat1 (F := Ideal) V c).flushed 2 t = ((cfg1.win 2).blk t).view.read (Elt Ideal)
      (mm (F := Ideal) (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero Mat.hz]
  simp only [View.ld_unit_zero (S := S5000x128) Mat.hz, View.ld_unit_zero (S := S128x128) Mat.hz]
  funext j
  obtain ⟨p, q, rfl⟩ : ∃ (p : Fin 5000) (q : Fin 128), j = ix2 p q := ⟨j 0, j 1, eq_ix2 j⟩
  exact entry1 V c t p q

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- The twenty blocks tile the output array: row `r` lies in the block of point `r / 5000`, and every point writes back. -/
theorem cover1 (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  have hlt : (i 0).val / 5000 < cfg1.N := by rw [hN]; omega
  refine ⟨⟨(i 0).val / 5000, hlt⟩, flush1_2 _, ?_⟩
  obtain ⟨e0, e1, e2, e3, e4, e5⟩ := idx_facts1 ⟨(i 0).val / 5000, hlt⟩
  have e4' : win1_2.index ⟨(i 0).val / 5000, hlt⟩ (0 : Fin 2) = (i 0).val / 5000 := e4
  rw [mem_blk1]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    omega
  | ⟨1, _⟩ =>
    show win1_2.index ⟨(i 0).val / 5000, hlt⟩ (1 : Fin 2) * 128 ≤ (i 1).val
      ∧ (i 1).val < win1_2.index ⟨(i 0).val / 5000, hlt⟩ (1 : Fin 2) * 128 + 128
    omega

/-- The array region 1 leaves in its output window is the product of the two arrays it read: every point writes the
    product's own block, and the blocks cover the array. -/
theorem region1_value : (dat1 (F := Ideal) V c).arrAt 2 cfg1.N = mm (F := Ideal) (V c (Pipeline.arrRef spec1 0)) (V c (Pipeline.arrRef spec1 1)) :=
  (dat1 (F := Ideal) V c).arrAt_eq_of_cover 2 _ (fun t _ => flushed_eq1 V c t) cover1

end Cert.Mp

end
-- ==== Proof.RegionValue2.lean ====
/-
  The value of pallas_call region 2 at the ideal values: the array the region leaves in its output window is the matrix
  product `mm` of the two arrays it reads.
-/
import proofs.«400287_j68238440398870_1_alg».proof.Proof.Gen.KernelIdeal.Frame
import proofs.«400287_j68238440398870_1_alg».proof.Proof.Spec
import proofs.«400287_j68238440398870_1_alg».proof.Proof.RegionLemmas
import Idealize.ShloMosaic.PureOps.Ideal
import Idealize.ShloMosaic.Lib.Pipeline.Value
import Idealize.ShloMosaic.Lib.KernelVsHost

noncomputable section

namespace Cert.Mp

open Idealize.ShloMosaic Idealize.ShloMosaic.TcCoe Cert.KernelIdeal Cert.KernelIdeal.Gen
open Idealize.ShloMosaic.ValueIdx

variable (V : (c : Dev nD) → (b : Ref sig .tc) → Buf (Elt Ideal) ((c : Thread nD τ).loc b)) (c : Dev nD)

/-! # The value of pallas_call region 2: the product of the two arrays it reads

  The region runs the matmul body on a grid of 20 points. Point `t` reads rows 5000·t … 5000·t + 4999 of the left array
  (a [5000,128] block), the whole [128,128] right array, and writes their product to the same rows of the output array.
  So the output array ends as the whole product `mm`: entry (r, q) of either is the sum over k of X(r,k) · W(k,q). -/

/-- The printed index maps, decided over the grid: the left operand's window moves with the output's along the rows and
    sits at column block 0; the right operand's window stays at block (0, 0); the output's row block is the point's own
    number, its column block 0. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The body's payload read at an entry: the sum over k of x(p,k) · w(k,q) of the two blocks it loaded (a reshape of a
    block to its own shape, where the body has one, is the identity). -/
theorem pay_apply2 (x : Vec Ideal S5000x128 .f32) (w : Vec Ideal S128x128 .f32) (p : Fin 5000) (q : Fin 128) :
    (k2_pay1 (F := Ideal) x w : FVec Ideal S5000x128 .f32) (ix2 p q) = ∑ k : Fin 128, x (ix2 p k) * w (ix2 k q) := by
  unfold k2_pay1
  first
  | (rw [shapeCast_self]; exact Mat.blockProduct_apply x w _ _ p q)
  | exact Mat.blockProduct_apply x w _ _ p q

/-- Entry (p, q) of what point `t` computes is the whole product's entry at the place of the array that entry is written
    back to, row 5000·t + p and column q: both are the same sum, the left block's row p being the left array's row
    5000·t + p and the right block being the right array. -/
theorem entry2 (t : Fin cfg2.N) (p : Fin 5000) (q : Fin 128) :
    (k2_pay1 (F := Ideal) (iblk2 V c 0 t) (iblk2 V c 1 t) : FVec Ideal S5000x128 .f32) (ix2 p q)
      = mm (F := Ideal) (V c (Pipeline.arrRef spec2 0)) (V c (Pipeline.arrRef spec2 1)) (((cfg2.win 2).blk t).view.emb (ix2 p q)) := by
  obtain ⟨e0, e1, e2, e3, e4, e5⟩ := idx_facts2 t
  have hN : cfg2.N = 20 := N_2
  have ht : t.val < 20 := hN ▸ t.isLt
  have hr : t.val * 5000 + p.val < 100000 := by have := p.isLt; omega
  rw [pay_apply2]
  -- where the entry lands in the output array
  have h2 : ((cfg2.win 2).blk t).view.emb (ix2 p q) = ix2 (⟨t.val * 5000 + p.val, hr⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [h2, Mat.mm_apply]
  refine Finset.sum_congr rfl fun k _ => ?_
  -- where the left block's entry (p, k) and the right block's entry (k, q) sit in their arrays
  have h0 : ((cfg2.win 0).blk t).view.emb (ix2 p k) = ix2 (⟨t.val * 5000 + p.val, hr⟩ : Fin 100000) k := by
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have hx : (iblk2 V c 0 t : FVec Ideal S5000x128 .f32) (ix2 p k)
      = (V c (Pipeline.arrRef spec2 0) : FVec Ideal S100000x128 .f32) (ix2 (⟨t.val * 5000 + p.val, hr⟩ : Fin 100000) k) := by
    show V c (Pipeline.arrRef spec2 0) (((cfg2.win 0).blk t).view.emb (ix2 p k)) = _
    rw [h0]
  have hw : (iblk2 V c 1 t : FVec Ideal S128x128 .f32) (ix2 k q)
      = (V c (Pipeline.arrRef spec2 1) : FVec Ideal S128x128 .f32) (ix2 k q) := by
    show V c (Pipeline.arrRef spec2 1) (((cfg2.win 1).blk t).view.emb (ix2 k q)) = _
    rw [h1]
  rw [hx, hw]

/-- What point `t` writes back is block `t` of the whole product of the two arrays as the region finds them: the body's
    one store fills the output's buffer with its payload of the two loaded blocks, entry by entry `entry2`. -/
theorem flushed_eq2 (t : Fin cfg2.N) :
    (dat2 (F := Ideal) V c).flushed 2 t = ((cfg2.win 2).blk t).view.read (Elt Ideal)
      (mm (F := Ideal) (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero Mat.hz]
  simp only [View.ld_unit_zero (S := S5000x128) Mat.hz, View.ld_unit_zero (S := S128x128) Mat.hz]
  funext j
  obtain ⟨p, q, rfl⟩ : ∃ (p : Fin 5000) (q : Fin 128), j = ix2 p q := ⟨j 0, j 1, eq_ix2 j⟩
  exact entry2 V c t p q

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

/-- The twenty blocks tile the output array: row `r` lies in the block of point `r / 5000`, and every point writes back. -/
theorem cover2 (i : S100000x128.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  have hlt : (i 0).val / 5000 < cfg2.N := by rw [hN]; omega
  refine ⟨⟨(i 0).val / 5000, hlt⟩, flush2_2 _, ?_⟩
  obtain ⟨e0, e1, e2, e3, e4, e5⟩ := idx_facts2 ⟨(i 0).val / 5000, hlt⟩
  have e4' : win2_2.index ⟨(i 0).val / 5000, hlt⟩ (0 : Fin 2) = (i 0).val / 5000 := e4
  rw [mem_blk2]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    omega
  | ⟨1, _⟩ =>
    show win2_2.index ⟨(i 0).val / 5000, hlt⟩ (1 : Fin 2) * 128 ≤ (i 1).val
      ∧ (i 1).val < win2_2.index ⟨(i 0).val / 5000, hlt⟩ (1 : Fin 2) * 128 + 128
    omega

/-- The array region 2 leaves in its output window is the product of the two arrays it read: every point writes the
    product's own block, and the blocks cover the array. -/
theorem region2_value : (dat2 (F := Ideal) V c).arrAt 2 cfg2.N = mm (F := Ideal) (V c (Pipeline.arrRef spec2 0)) (V c (Pipeline.arrRef spec2 1)) :=
  (dat2 (F := Ideal) V c).arrAt_eq_of_cover 2 _ (fun t _ => flushed_eq2 V c t) cover2

end Cert.Mp

end
-- ==== Proof.RegionValue3.lean ====
/-
  The value of pallas_call region 3 at the ideal values: the array the region leaves in its output window is the matrix
  product `mm` of the two arrays it reads.
-/
import proofs.«400287_j68238440398870_1_alg».proof.Proof.Gen.KernelIdeal.Frame
import proofs.«400287_j68238440398870_1_alg».proof.Proof.Spec
import proofs.«400287_j68238440398870_1_alg».proof.Proof.RegionLemmas
import Idealize.ShloMosaic.PureOps.Ideal
import Idealize.ShloMosaic.Lib.Pipeline.Value
import Idealize.ShloMosaic.Lib.KernelVsHost

noncomputable section

namespace Cert.Mp

open Idealize.ShloMosaic Idealize.ShloMosaic.TcCoe Cert.KernelIdeal Cert.KernelIdeal.Gen
open Idealize.ShloMosaic.ValueIdx

variable (V : (c : Dev nD) → (b : Ref sig .tc) → Buf (Elt Ideal) ((c : Thread nD τ).loc b)) (c : Dev nD)

/-! # The value of pallas_call region 3: the product of the two arrays it reads

  The region runs the matmul body on a grid of 20 points. Point `t` reads rows 5000·t … 5000·t + 4999 of the left array
  (a [5000,128] block), the whole [128,128] right array, and writes their product to the same rows of the output array.
  So the output array ends as the whole product `mm`: entry (r, q) of either is the sum over k of X(r,k) · W(k,q). -/

/-- The printed index maps, decided over the grid: the left operand's window moves with the output's along the rows and
    sits at column block 0; the right operand's window stays at block (0, 0); the output's row block is the point's own
    number, its column block 0. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The body's payload read at an entry: the sum over k of x(p,k) · w(k,q) of the two blocks it loaded (a reshape of a
    block to its own shape, where the body has one, is the identity). -/
theorem pay_apply3 (x : Vec Ideal S5000x128 .f32) (w : Vec Ideal S128x128 .f32) (p : Fin 5000) (q : Fin 128) :
    (k3_pay1 (F := Ideal) x w : FVec Ideal S5000x128 .f32) (ix2 p q) = ∑ k : Fin 128, x (ix2 p k) * w (ix2 k q) := by
  unfold k3_pay1
  first
  | (rw [shapeCast_self]; exact Mat.blockProduct_apply x w _ _ p q)
  | exact Mat.blockProduct_apply x w _ _ p q

/-- Entry (p, q) of what point `t` computes is the whole product's entry at the place of the array that entry is written
    back to, row 5000·t + p and column q: both are the same sum, the left block's row p being the left array's row
    5000·t + p and the right block being the right array. -/
theorem entry3 (t : Fin cfg3.N) (p : Fin 5000) (q : Fin 128) :
    (k3_pay1 (F := Ideal) (iblk3 V c 0 t) (iblk3 V c 1 t) : FVec Ideal S5000x128 .f32) (ix2 p q)
      = mm (F := Ideal) (V c (Pipeline.arrRef spec3 0)) (V c (Pipeline.arrRef spec3 1)) (((cfg3.win 2).blk t).view.emb (ix2 p q)) := by
  obtain ⟨e0, e1, e2, e3, e4, e5⟩ := idx_facts3 t
  have hN : cfg3.N = 20 := N_3
  have ht : t.val < 20 := hN ▸ t.isLt
  have hr : t.val * 5000 + p.val < 100000 := by have := p.isLt; omega
  rw [pay_apply3]
  -- where the entry lands in the output array
  have h2 : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  rw [h2, Mat.mm_apply]
  refine Finset.sum_congr rfl fun k _ => ?_
  -- where the left block's entry (p, k) and the right block's entry (k, q) sit in their arrays
  have h0 : ((cfg3.win 0).blk t).view.emb (ix2 p k) = ix2 (⟨t.val * 5000 + p.val, hr⟩ : Fin 100000) k := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * k.val = k.val; omega
  have h1 : ((cfg3.win 1).blk t).view.emb (ix2 k q) = ix2 k q := by
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  have hx : (iblk3 V c 0 t : FVec Ideal S5000x128 .f32) (ix2 p k)
      = (V c (Pipeline.arrRef spec3 0) : FVec Ideal S100000x128 .f32) (ix2 (⟨t.val * 5000 + p.val, hr⟩ : Fin 100000) k) := by
    show V c (Pipeline.arrRef spec3 0) (((cfg3.win 0).blk t).view.emb (ix2 p k)) = _
    rw [h0]
  have hw : (iblk3 V c 1 t : FVec Ideal S128x128 .f32) (ix2 k q)
      = (V c (Pipeline.arrRef spec3 1) : FVec Ideal S128x128 .f32) (ix2 k q) := by
    show V c (Pipeline.arrRef spec3 1) (((cfg3.win 1).blk t).view.emb (ix2 k q)) = _
    rw [h1]
  rw [hx, hw]

/-- What point `t` writes back is block `t` of the whole product of the two arrays as the region finds them: the body's
    one store fills the output's buffer with its payload of the two loaded blocks, entry by entry `entry3`. -/
theorem flushed_eq3 (t : Fin cfg3.N) :
    (dat3 (F := Ideal) V c).flushed 2 t = ((cfg3.win 2).blk t).view.read (Elt Ideal)
      (mm (F := Ideal) (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero Mat.hz]
  simp only [View.ld_unit_zero (S := S5000x128) Mat.hz, View.ld_unit_zero (S := S128x128) Mat.hz]
  funext j
  obtain ⟨p, q, rfl⟩ : ∃ (p : Fin 5000) (q : Fin 128), j = ix2 p q := ⟨j 0, j 1, eq_ix2 j⟩
  exact entry3 V c t p q

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

/-- The twenty blocks tile the output array: row `r` lies in the block of point `r / 5000`, and every point writes back. -/
theorem cover3 (i : S100000x128.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 128 := (i 1).isLt
  have hlt : (i 0).val / 5000 < cfg3.N := by rw [hN]; omega
  refine ⟨⟨(i 0).val / 5000, hlt⟩, flush3_2 _, ?_⟩
  obtain ⟨e0, e1, e2, e3, e4, e5⟩ := idx_facts3 ⟨(i 0).val / 5000, hlt⟩
  have e4' : win3_2.index ⟨(i 0).val / 5000, hlt⟩ (0 : Fin 2) = (i 0).val / 5000 := e4
  rw [mem_blk3]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    omega
  | ⟨1, _⟩ =>
    show win3_2.index ⟨(i 0).val / 5000, hlt⟩ (1 : Fin 2) * 128 ≤ (i 1).val
      ∧ (i 1).val < win3_2.index ⟨(i 0).val / 5000, hlt⟩ (1 : Fin 2) * 128 + 128
    omega

/-- The array region 3 leaves in its output window is the product of the two arrays it read: every point writes the
    product's own block, and the blocks cover the array. -/
theorem region3_value : (dat3 (F := Ideal) V c).arrAt 2 cfg3.N = mm (F := Ideal) (V c (Pipeline.arrRef spec3 0)) (V c (Pipeline.arrRef spec3 1)) :=
  (dat3 (F := Ideal) V c).arrAt_eq_of_cover 2 _ (fun t _ => flushed_eq3 V c t) cover3

end Cert.Mp

end
-- ==== Proof.RegionValue4.lean ====
/-
  The value of pallas_call region 4 at the ideal values: the array the region leaves in its output window is the matrix
  product `mm` of the two arrays it reads.
-/
import proofs.«400287_j68238440398870_1_alg».proof.Proof.Gen.KernelIdeal.Frame
import proofs.«400287_j68238440398870_1_alg».proof.Proof.Spec
import proofs.«400287_j68238440398870_1_alg».proof.Proof.RegionLemmas
import Idealize.ShloMosaic.PureOps.Ideal
import Idealize.ShloMosaic.Lib.Pipeline.Value
import Idealize.ShloMosaic.Lib.KernelVsHost

noncomputable section

namespace Cert.Mp

open Idealize.ShloMosaic Idealize.ShloMosaic.TcCoe Cert.KernelIdeal Cert.KernelIdeal.Gen
open Idealize.ShloMosaic.ValueIdx

variable (V : (c : Dev nD) → (b : Ref sig .tc) → Buf (Elt Ideal) ((c : Thread nD τ).loc b)) (c : Dev nD)

/-! # The value of pallas_call region 4: the product of the two arrays it reads

  The region runs the matmul body on a grid of 20 points. Point `t` reads rows 5000·t … 5000·t + 4999 of the left array
  (a [5000,128] block), the whole [128,128] right array, and writes their product to the same rows of the output array.
  So the output array ends as the whole product `mm`: entry (r, q) of either is the sum over k of X(r,k) · W(k,q). -/

/-- The printed index maps, decided over the grid: the left operand's window moves with the output's along the rows and
    sits at column block 0; the right operand's window stays at block (0, 0); the output's row block is the point's own
    number, its column block 0. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The body's payload read at an entry: the sum over k of x(p,k) · w(k,q) of the two blocks it loaded (a reshape of a
    block to its own shape, where the body has one, is the identity). -/
theorem pay_apply4 (x : Vec Ideal S5000x128 .f32) (w : Vec Ideal S128x128 .f32) (p : Fin 5000) (q : Fin 128) :
    (k4_pay1 (F := Ideal) x w : FVec Ideal S5000x128 .f32) (ix2 p q) = ∑ k : Fin 128, x (ix2 p k) * w (ix2 k q) := by
  unfold k4_pay1
  first
  | (rw [shapeCast_self]; exact Mat.blockProduct_apply x w _ _ p q)
  | exact Mat.blockProduct_apply x w _ _ p q

/-- Entry (p, q) of what point `t` computes is the whole product's entry at the place of the array that entry is written
    back to, row 5000·t + p and column q: both are the same sum, the left block's row p being the left array's row
    5000·t + p and the right block being the right array. -/
theorem entry4 (t : Fin cfg4.N) (p : Fin 5000) (q : Fin 128) :
    (k4_pay1 (F := Ideal) (iblk4 V c 0 t) (iblk4 V c 1 t) : FVec Ideal S5000x128 .f32) (ix2 p q)
      = mm (F := Ideal) (V c (Pipeline.arrRef spec4 0)) (V c (Pipeline.arrRef spec4 1)) (((cfg4.win 2).blk t).view.emb (ix2 p q)) := by
  obtain ⟨e0, e1, e2, e3, e4, e5⟩ := idx_facts4 t
  have hN : cfg4.N = 20 := N_4
  have ht : t.val < 20 := hN ▸ t.isLt
  have hr : t.val * 5000 + p.val < 100000 := by have := p.isLt; omega
  rw [pay_apply4]
  -- where the entry lands in the output array
  have h2 : ((cfg4.win 2).blk t).view.emb (ix2 p q) = ix2 (⟨t.val * 5000 + p.val, hr⟩ : Fin 100000) q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  rw [h2, Mat.mm_apply]
  refine Finset.sum_congr rfl fun k _ => ?_
  -- where the left block's entry (p, k) and the right block's entry (k, q) sit in their arrays
  have h0 : ((cfg4.win 0).blk t).view.emb (ix2 p k) = ix2 (⟨t.val * 5000 + p.val, hr⟩ : Fin 100000) k := by
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : ((cfg4.win 1).blk t).view.emb (ix2 k q) = ix2 k q := by
    funext a; apply Fin.ext
    match a with
    | ⟨0, _⟩ => show win4_1.index t (0 : Fin 2) * 128 + 1 * k.val = k.val; omega
    | ⟨1, _⟩ => show win4_1.index t (1 : Fin 2) * 128 + 1 * q.val = q.val; omega
  have hx : (iblk4 V c 0 t : FVec Ideal S5000x128 .f32) (ix2 p k)
      = (V c (Pipeline.arrRef spec4 0) : FVec Ideal S100000x128 .f32) (ix2 (⟨t.val * 5000 + p.val, hr⟩ : Fin 100000) k) := by
    show V c (Pipeline.arrRef spec4 0) (((cfg4.win 0).blk t).view.emb (ix2 p k)) = _
    rw [h0]
  have hw : (iblk4 V c 1 t : FVec Ideal S128x128 .f32) (ix2 k q)
      = (V c (Pipeline.arrRef spec4 1) : FVec Ideal S128x128 .f32) (ix2 k q) := by
    show V c (Pipeline.arrRef spec4 1) (((cfg4.win 1).blk t).view.emb (ix2 k q)) = _
    rw [h1]
  rw [hx, hw]

/-- What point `t` writes back is block `t` of the whole product of the two arrays as the region finds them: the body's
    one store fills the output's buffer with its payload of the two loaded blocks, entry by entry `entry4`. -/
theorem flushed_eq4 (t : Fin cfg4.N) :
    (dat4 (F := Ideal) V c).flushed 2 t = ((cfg4.win 2).blk t).view.read (Elt Ideal)
      (mm (F := Ideal) (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero Mat.hz]
  simp only [View.ld_unit_zero (S := S5000x128) Mat.hz, View.ld_unit_zero (S := S128x128) Mat.hz]
  funext j
  obtain ⟨p, q, rfl⟩ : ∃ (p : Fin 5000) (q : Fin 128), j = ix2 p q := ⟨j 0, j 1, eq_ix2 j⟩
  exact entry4 V c t p q

/-- An index of the output array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

/-- The twenty blocks tile the output array: row `r` lies in the block of point `r / 5000`, and every point writes back. -/
theorem cover4 (i : S100000x128.Idx) :
    ∃ t : Fin cfg4.N, (cfg4.win 2).flush t = true ∧ i ∈ ((cfg4.win 2).blk t).view.set := by
  have hN : cfg4.N = 20 := N_4
  have hi0 : (i 0).val < 100000 := (i 0).isLt
  have hi1 : (i 1).val < 128 := (i 1).isLt
  have hlt : (i 0).val / 5000 < cfg4.N := by rw [hN]; omega
  refine ⟨⟨(i 0).val / 5000, hlt⟩, flush4_2 _, ?_⟩
  obtain ⟨e0, e1, e2, e3, e4, e5⟩ := idx_facts4 ⟨(i 0).val / 5000, hlt⟩
  have e4' : win4_2.index ⟨(i 0).val / 5000, hlt⟩ (0 : Fin 2) = (i 0).val / 5000 := e4
  rw [mem_blk4]
  intro a
  match a with
  | ⟨0, _⟩ =>
    show win4_2.index ⟨(i 0).val / 5000, hlt⟩ (0 : Fin 2) * 5000 ≤ (i 0).val
      ∧ (i 0).val < win4_2.index ⟨(i 0).val / 5000, hlt⟩ (0 : Fin 2) * 5000 + 5000
    omega
  | ⟨1, _⟩ =>
    show win4_2.index ⟨(i 0).val / 5000, hlt⟩ (1 : Fin 2) * 128 ≤ (i 1).val
      ∧ (i 1).val < win4_2.index ⟨(i 0).val / 5000, hlt⟩ (1 : Fin 2) * 128 + 128
    omega

/-- The array region 4 leaves in its output window is the product of the two arrays it read: every point writes the
    product's own block, and the blocks cover the array. -/
theorem region4_value : (dat4 (F := Ideal) V c).arrAt 2 cfg4.N = mm (F := Ideal) (V c (Pipeline.arrRef spec4 0)) (V c (Pipeline.arrRef spec4 1)) :=
  (dat4 (F := Ideal) V c).arrAt_eq_of_cover 2 _ (fun t _ => flushed_eq4 V c t) cover4

end Cert.Mp

end
-- ==== Proof.RegionValue5.lean ====
/-
  The value of pallas_call region 5 at the ideal values: the array the region leaves in its output window is the matrix
  product `mm` of the two arrays it reads.
-/
import proofs.«400287_j68238440398870_1_alg».proof.Proof.Gen.KernelIdeal.Frame
import proofs.«400287_j68238440398870_1_alg».proof.Proof.Spec
import proofs.«400287_j68238440398870_1_alg».proof.Proof.RegionLemmas
import Idealize.ShloMosaic.PureOps.Ideal
import Idealize.ShloMosaic.Lib.Pipeline.Value
import Idealize.ShloMosaic.Lib.KernelVsHost

noncomputable section

namespace Cert.Mp

open Idealize.ShloMosaic Idealize.ShloMosaic.TcCoe Cert.KernelIdeal Cert.KernelIdeal.Gen
open Idealize.ShloMosaic.ValueIdx

variable (V : (c : Dev nD) → (b : Ref sig .tc) → Buf (Elt Ideal) ((c : Thread nD τ).loc b)) (c : Dev nD)

/-! # The value of pallas_call region 5: the product of the two arrays it reads

  The region runs the matmul body on a grid of 20 points. Point `t` reads rows 5000·t … 5000·t + 4999 of the left array
  (a [5000,128] block), the whole [128,128] right array, and writes their product to the same rows of the output array.
  So the output array ends as the whole product `mm`: entry (r, q) of either is the sum over k of X(r,k) · W(k,q). -/

/-- The printed index maps, decided over the grid: the left operand's window moves with the output's along the rows and
    sits at column block 0; the right operand's window stays at block (0, 0); the output's row block is the point's own
    number, its column block 0. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- The body's payload read at an entry: the sum over k of x(p,k) · w(k,q) of the two blocks it loaded (a reshape of a
    block to its own shape, where the body has one, is the identity). -/
theorem pay_apply5 (x : Vec Ideal S5000x128 .f32) (w : Vec Ideal S128x128 .f32) (p : Fin 5000) (q : Fin 128) :
    (k5_pay1 (F := Ideal) x w : FVec Ideal S5000x128 .f32) (ix2 p q) = ∑ k : Fin 128, x (ix2 p k) * w (ix2 k q) := by
  unfold k5_pay1
  first
  | (rw [shapeCast_self]; exact Mat.blockProduct_apply x w _ _ p q)
  | exact Mat.blockProduct_apply x w _ _ p q

/-- Entry (p, q) of what point `t` computes is the whole product's entry at the place of the array that entry is written
    back to, row 5000·t + p and column q: both are the same sum, the left block's row p being the left array's row
    5000·t + p and the right block being the right array. -/
theorem entry5 (t : Fin cfg5.N) (p : Fin 5000) (q : Fin 128) :
    (k5_pay1 (F := Ideal) (iblk5 V c 0 t) (iblk5 V c 1 t) : FVec Ideal S5000x128 .f32) (ix2 p q)
      = mm (F := Ideal) (V c (Pipeline.arrRef spec5 0)) (V c (Pipeline.arrRef spec5 1)) (((cfg5.win 2).blk t).view.emb (ix2 p q)) := by
  obtain ⟨e0, e1, e2, e3, e4, e5⟩ := idx_facts5 t
  have hN : cfg5.N = 20 := N_5
  have ht : t.val < 20 := hN ▸ t.isLt
  have hr : t.val * 5000 + p.val < 100000 := by have := p.isLt; omega
  rw [pay_apply5]
  -- where the entry lands in the output array
  have h2 : ((cfg5.win 2).blk t).view.emb (ix2 p q) = ix2 (⟨t.val * 5000 + p.val, hr⟩ : Fin 100000) q := by
    funext a; apply Fin.ext
    match a with
    | ⟨0, _⟩ => show win5_2.index t (0 : Fin 2) * 5000 + 1 * p.val = t.val * 5000 + p.val; omega
    | ⟨1, _⟩ => show win5_2.index t (1 : Fin 2) * 128 + 1 * q.val = q.val; omega
  rw [h2, Mat.mm_apply]
  refine Finset.sum_congr rfl fun k _ => ?_
  -- where the left block's entry (p, k) and the right block's entry (k, q) sit in their arrays
  have h0 : ((cfg5.win 0).blk t).view.emb (ix2 p k) = ix2 (⟨t.val * 5000 + p.val, hr⟩ : Fin 100000) k := by
    funext a; apply Fin.ext
    match a with
    | ⟨0, _⟩ => show win5_0.index t (0 : Fin 2) * 5000 + 1 * p.val = t.val * 5000 + p.val; omega
    | ⟨1, _⟩ => show win5_0.index t (1 : Fin 2) * 128 + 1 * k.val = k.val; omega
  have h1 : ((cfg5.win 1).blk t).view.emb (ix2 k q) = ix2 k q := by
    funext a; apply Fin.ext
    match a with
    | ⟨0, _⟩ => show win5_1.index t (0 : Fin 2) * 128 + 1 * k.val = k.val; omega
    | ⟨1, _⟩ => show win5_1.index t (1 : Fin 2) * 128 + 1 * q.val = q.val; omega
  have hx : (iblk5 V c 0 t : FVec Ideal S5000x128 .f32) (ix2 p k)
      = (V c (Pipeline.arrRef spec5 0) : FVec Ideal S100000x128 .f32) (ix2 (⟨t.val * 5000 + p.val, hr⟩ : Fin 100000) k) := by
    show V c (Pipeline.arrRef spec5 0) (((cfg5.win 0).blk t).view.emb (ix2 p k)) = _
    rw [h0]
  have hw : (iblk5 V c 1 t : FVec Ideal S128x128 .f32) (ix2 k q)
      = (V c (Pipeline.arrRef spec5 1) : FVec Ideal S128x128 .f32) (ix2 k q) := by
    show V c (Pipeline.arrRef spec5 1) (((cfg5.win 1).blk t).view.emb (ix2 k q)) = _
    rw [h1]
  rw [hx, hw]

/-- What point `t` writes back is block `t` of the whole product of the two arrays as the region finds them: the body's
    one store fills the output's buffer with its payload of the two loaded blocks, entry by entry `entry5`. -/
theorem flushed_eq5 (t : Fin cfg5.N) :
    (dat5 (F := Ideal) V c).flushed 2 t = ((cfg5.win 2).blk t).view.read (Elt Ideal)
      (mm (F := Ideal) (V c (Pipeline.arrRef spec5 0)) (V c (Pipeline.arrRef spec5 1))) := by
  show (cfg5.win 2).cut (grid5.coords t) ((dat5 (F := Ideal) V c).after 2 t) = _
  rw [after5_2]
  unfold out5_2
  rw [View.canon_unit_zero Mat.hz]
  simp only [View.ld_unit_zero (S := S5000x128) Mat.hz, View.ld_unit_zero (S := S128x128) Mat.hz]
  funext j
  obtain ⟨p, q, rfl⟩ : ∃ (p : Fin 5000) (q : Fin 128), j = ix2 p q := ⟨j 0, j 1, eq_ix2 j⟩
  exact entry5 V c t p q

/-- An index of the output array is in point `t`'s block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole (Pipeline.arrRef spec5 2)).slice (win5_2.rect t)).set ↔ _
  rw [View.set_slice_whole, Rect.mem_set_unit]
  exact Iff.rfl

/-- The twenty blocks tile the output array: row `r` lies in the block of point `r / 5000`, and every point writes back. -/
theorem cover5 (i : S100000x128.Idx) :
    ∃ t : Fin cfg5.N, (cfg5.win 2).flush t = true ∧ i ∈ ((cfg5.win 2).blk t).view.set := by
  have hN : cfg5.N = 20 := N_5
  have hi0 : (i 0).val < 100000 := (i 0).isLt
  have hi1 : (i 1).val < 128 := (i 1).isLt
  have hlt : (i 0).val / 5000 < cfg5.N := by rw [hN]; omega
  refine ⟨⟨(i 0).val / 5000, hlt⟩, flush5_2 _, ?_⟩
  obtain ⟨e0, e1, e2, e3, e4, e5⟩ := idx_facts5 ⟨(i 0).val / 5000, hlt⟩
  have e4' : win5_2.index ⟨(i 0).val / 5000, hlt⟩ (0 : Fin 2) = (i 0).val / 5000 := e4
  rw [mem_blk5]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    omega
  | ⟨1, _⟩ =>
    show win5_2.index ⟨(i 0).val / 5000, hlt⟩ (1 : Fin 2) * 128 ≤ (i 1).val
      ∧ (i 1).val < win5_2.index ⟨(i 0).val / 5000, hlt⟩ (1 : Fin 2) * 128 + 128
    omega

/-- The array region 5 leaves in its output window is the product of the two arrays it read: every point writes the
    product's own block, and the blocks cover the array. -/
theorem region5_value : (dat5 (F := Ideal) V c).arrAt 2 cfg5.N = mm (F := Ideal) (V c (Pipeline.arrRef spec5 0)) (V c (Pipeline.arrRef spec5 1)) :=
  (dat5 (F := Ideal) V c).arrAt_eq_of_cover 2 _ (fun t _ => flushed_eq5 V c t) cover5

end Cert.Mp

end
-- ==== Proof.RegionValue.lean ====
/-
  The value of each of the program's six pallas_call regions at the ideal values: the array a region leaves in its
  output window is the matrix product `mm` of the two arrays it reads (`Cert.Mp.region0_value` … `Cert.Mp.region5_value`,
  one module per region).
-/
import proofs.«400287_j68238440398870_1_alg».proof.Proof.RegionValue0
import proofs.«400287_j68238440398870_1_alg».proof.Proof.RegionValue1
import proofs.«400287_j68238440398870_1_alg».proof.Proof.RegionValue2
import proofs.«400287_j68238440398870_1_alg».proof.Proof.RegionValue3
import proofs.«400287_j68238440398870_1_alg».proof.Proof.RegionValue4
import proofs.«400287_j68238440398870_1_alg».proof.Proof.RegionValue5
-- ==== Proof.FoldChain.lean ====
/-
  The kernel's program read through its 45 segments, at the ideal values: what the last segment boundary holds in the two result
  buffers is the three rounds of message passing, each direction of each round computed with jnp.take (`aggTake`), of the
  eight argument arrays.

  The boundaries: a region's exit holds the region's output array at the product `mm` of the two arrays the region read
  (Proof/RegionValue.lean) and every other buffer as the region found it; the host stretch after a region leaves the round's
  result at `meanRelu (takeRows …)` of the region's output (Proof/AggNew0.lean and its siblings) and every buffer it does not write as
  it found it (Proof/FoldKeep.lean); after each pair of directions two additions update the two node tables. No segment writes
  an argument array, so an argument read at any boundary is the argument at launch.
-/
import proofs.«400287_j68238440398870_1_alg».proof.Proof.AggNew0
import proofs.«400287_j68238440398870_1_alg».proof.Proof.AggNew1
import proofs.«400287_j68238440398870_1_alg».proof.Proof.AggNew2
import proofs.«400287_j68238440398870_1_alg».proof.Proof.AggNew3
import proofs.«400287_j68238440398870_1_alg».proof.Proof.AggNew4
import proofs.«400287_j68238440398870_1_alg».proof.Proof.AggNew5
import proofs.«400287_j68238440398870_1_alg».proof.Proof.FoldKeep
import proofs.«400287_j68238440398870_1_alg».proof.Proof.RegionValue
import Idealize.ShloMosaic.PureOps.Ideal

set_option maxRecDepth 16384

noncomputable section

namespace Cert.Mp

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

/-! ## The arguments at every boundary -/

/-- The eight argument arrays' buffers. -/
abbrev argRefs : List (Ref sig .tc) :=
  [main_arg0, main_arg1, main_arg2, main_arg3, main_arg4, main_arg5, main_arg6, main_arg7]

/-- No argument is a region's output array. -/
theorem arg_ne_outs : ∀ r ∈ argRefs,
    r ≠ main_v0 ∧ r ≠ main_v26 ∧ r ≠ main_v54 ∧ r ≠ main_v80 ∧ r ≠ main_v108 ∧ r ≠ main_v134 := by decide

/-- No host operation writes an argument. -/
theorem arg_not_written : ∀ r ∈ argRefs,
    r ∉ agg0_W ∧ r ∉ agg1_W ∧ r ∉ agg2_W ∧ r ∉ agg3_W ∧ r ∉ agg4_W ∧ r ∉ agg5_W
      ∧ r ∉ ([main_v52, main_v53] : List (Ref sig .tc)) ∧ r ∉ ([main_v106, main_v107] : List (Ref sig .tc)) := by decide

section Args
variable (r : Ref sig .tc) (h : r ∈ argRefs)
include h

theorem arg_W1 : W1 m ρ c (Proc.devRef .tc r) = W0 m ρ c (Proc.devRef .tc r) :=
  region0_keep m ρ c r (arg_ne_outs r h).1
theorem arg_W7 : W7 m ρ c (Proc.devRef .tc r) = W0 m ρ c (Proc.devRef .tc r) :=
  (agg0_keep m ρ c r (arg_not_written r h).1).trans (arg_W1 m ρ c r h)
theorem arg_W8 : W8 m ρ c (Proc.devRef .tc r) = W0 m ρ c (Proc.devRef .tc r) :=
  (region1_keep m ρ c r (arg_ne_outs r h).2.1).trans (arg_W7 m ρ c r h)
theorem arg_W14 : W14 m ρ c (Proc.devRef .tc r) = W0 m ρ c (Proc.devRef .tc r) :=
  (agg1_keep m ρ c r (arg_not_written r h).2.1).trans (arg_W8 m ρ c r h)
theorem arg_W15 : W15 m ρ c (Proc.devRef .tc r) = W0 m ρ c (Proc.devRef .tc r) :=
  (adds1_keep m ρ c r (arg_not_written r h).2.2.2.2.2.2.1).trans (arg_W14 m ρ c r h)
theorem arg_W16 : W16 m ρ c (Proc.devRef .tc r) = W0 m ρ c (Proc.devRef .tc r) :=
  (region2_keep m ρ c r (arg_ne_outs r h).2.2.1).trans (arg_W15 m ρ c r h)
theorem arg_W22 : W22 m ρ c (Proc.devRef .tc r) = W0 m ρ c (Proc.devRef .tc r) :=
  (agg2_keep m ρ c r (arg_not_written r h).2.2.1).trans (arg_W16 m ρ c r h)
theorem arg_W23 : W23 m ρ c (Proc.devRef .tc r) = W0 m ρ c (Proc.devRef .tc r) :=
  (region3_keep m ρ c r (arg_ne_outs r h).2.2.2.1).trans (arg_W22 m ρ c r h)
theorem arg_W29 : W29 m ρ c (Proc.devRef .tc r) = W0 m ρ c (Proc.devRef .tc r) :=
  (agg3_keep m ρ c r (arg_not_written r h).2.2.2.1).trans (arg_W23 m ρ c r h)
theorem arg_W30 : W30 m ρ c (Proc.devRef .tc r) = W0 m ρ c (Proc.devRef .tc r) :=
  (adds3_keep m ρ c r (arg_not_written r h).2.2.2.2.2.2.2).trans (arg_W29 m ρ c r h)
theorem arg_W31 : W31 m ρ c (Proc.devRef .tc r) = W0 m ρ c (Proc.devRef .tc r) :=
  (region4_keep m ρ c r (arg_ne_outs r h).2.2.2.2.1).trans (arg_W30 m ρ c r h)
theorem arg_W37 : W37 m ρ c (Proc.devRef .tc r) = W0 m ρ c (Proc.devRef .tc r) :=
  (agg4_keep m ρ c r (arg_not_written r h).2.2.2.2.1).trans (arg_W31 m ρ c r h)
theorem arg_W38 : W38 m ρ c (Proc.devRef .tc r) = W0 m ρ c (Proc.devRef .tc r) :=
  (region5_keep m ρ c r (arg_ne_outs r h).2.2.2.2.2).trans (arg_W37 m ρ c r h)

end Args

/-! ## The argument arrays at launch, by their roles -/

/-- Node table A. -/
abbrev xA : FVec Ideal S100000x128 .f32 := W0 m ρ c (Proc.devRef .tc main_arg0)
/-- Node table B. -/
abbrev xB : FVec Ideal S100000x128 .f32 := W0 m ρ c (Proc.devRef .tc main_arg1)
/-- The edges a → b. -/
abbrev eAB : IVec S2x500000 32 := W0 m ρ c (Proc.devRef .tc main_arg2)
/-- The edges b → a. -/
abbrev eBA : IVec S2x500000 32 := W0 m ρ c (Proc.devRef .tc main_arg3)
/-- The weights along a → b. -/
abbrev wAB : FVec Ideal S128x128 .f32 := W0 m ρ c (Proc.devRef .tc main_arg4)
/-- The weights along b → a. -/
abbrev wBA : FVec Ideal S128x128 .f32 := W0 m ρ c (Proc.devRef .tc main_arg5)
/-- The bias of table A. -/
abbrev bA : FVec Ideal S128 .f32 := W0 m ρ c (Proc.devRef .tc main_arg6)
/-- The bias of table B. -/
abbrev bB : FVec Ideal S128 .f32 := W0 m ρ c (Proc.devRef .tc main_arg7)

/-! ## The additions -/

theorem sum_v52 : W15 m ρ c (Proc.devRef .tc main_v52)
    = addf (F := Ideal) (s := S100000x128) (φ := .f32) (W14 m ρ c (Proc.devRef .tc main_arg0)) (W14 m ρ c (Proc.devRef .tc main_v25)) := by
  unfold W15; simp only [hostOps2_6]; after_results_simp
theorem sum_v53 : W15 m ρ c (Proc.devRef .tc main_v53)
    = addf (F := Ideal) (s := S100000x128) (φ := .f32) (W14 m ρ c (Proc.devRef .tc main_arg1)) (W14 m ρ c (Proc.devRef .tc main_v51)) := by
  unfold W15; simp only [hostOps2_6]; after_results_simp
theorem sum_v106 : W30 m ρ c (Proc.devRef .tc main_v106)
    = addf (F := Ideal) (s := S100000x128) (φ := .f32) (W29 m ρ c (Proc.devRef .tc main_v52)) (W29 m ρ c (Proc.devRef .tc main_v79)) := by
  unfold W30; simp only [hostOps4_6]; after_results_simp
theorem sum_v107 : W30 m ρ c (Proc.devRef .tc main_v107)
    = addf (F := Ideal) (s := S100000x128) (φ := .f32) (W29 m ρ c (Proc.devRef .tc main_v53)) (W29 m ρ c (Proc.devRef .tc main_v105)) := by
  unfold W30; simp only [hostOps4_6]; after_results_simp
theorem sum_v160 : W45 m ρ c (Proc.devRef .tc main_v160)
    = addf (F := Ideal) (s := S100000x128) (φ := .f32) (W44 m ρ c (Proc.devRef .tc main_v106)) (W44 m ρ c (Proc.devRef .tc main_v133)) := by
  unfold W45; simp only [hostOps6_6]; after_results_simp
theorem sum_v161 : W45 m ρ c (Proc.devRef .tc main_v161)
    = addf (F := Ideal) (s := S100000x128) (φ := .f32) (W44 m ρ c (Proc.devRef .tc main_v107)) (W44 m ρ c (Proc.devRef .tc main_v159)) := by
  unfold W45; simp only [hostOps6_6]; after_results_simp

/-! ## Round 1 -/

/-- Region 0's output: the product of node table B by the weights b → a. -/
theorem out0 : W1 m ρ c (Proc.devRef .tc main_v0) = mm (F := Ideal) (xB m ρ c) (wBA m ρ c) :=
  (W1_arr m ρ c 2).trans (region0_value (V0 m ρ) c)

/-- The messages b → a of round 1. -/
theorem new0 : W7 m ρ c (Proc.devRef .tc main_v25) = aggTake (xB m ρ c) (wBA m ρ c) (eBA m ρ c) (bA m ρ c) := by
  rw [agg0_new, out0, arg_W1 m ρ c main_arg3 (by decide), arg_W1 m ρ c main_arg6 (by decide)]
  rfl

/-- Region 1's output: the product of node table A by the weights a → b. -/
theorem out1 : W8 m ρ c (Proc.devRef .tc main_v26) = mm (F := Ideal) (xA m ρ c) (wAB m ρ c) := by
  have h := (W8_arr m ρ c 2).trans (region1_value (V7 m ρ) c)
  have e0 : V7 m ρ c (Pipeline.arrRef spec1 0) = xA m ρ c := arg_W7 m ρ c main_arg0 (by decide)
  have e1 : V7 m ρ c (Pipeline.arrRef spec1 1) = wAB m ρ c := arg_W7 m ρ c main_arg4 (by decide)
  rw [e0, e1] at h
  exact h

/-- The messages a → b of round 1. -/
theorem new1 : W14 m ρ c (Proc.devRef .tc main_v51) = aggTake (xA m ρ c) (wAB m ρ c) (eAB m ρ c) (bB m ρ c) := by
  rw [agg1_new, out1, arg_W8 m ρ c main_arg2 (by decide), arg_W8 m ρ c main_arg7 (by decide)]
  rfl

/-- Node table A after round 1. -/
theorem val_v52 : W15 m ρ c (Proc.devRef .tc main_v52)
    = a1 aggTake (xA m ρ c) (xB m ρ c) (eBA m ρ c) (wBA m ρ c) (bA m ρ c) := by
  rw [sum_v52, arg_W14 m ρ c main_arg0 (by decide),
    (agg1_keep m ρ c main_v25 (by decide)).trans (region1_keep m ρ c main_v25 (by decide)), new0]
  rfl

/-- Node table B after round 1. -/
theorem val_v53 : W15 m ρ c (Proc.devRef .tc main_v53)
    = b1 aggTake (xA m ρ c) (xB m ρ c) (eAB m ρ c) (wAB m ρ c) (bB m ρ c) := by
  rw [sum_v53, arg_W14 m ρ c main_arg1 (by decide), new1]
  rfl

/-! ## Round 2 -/

theorem out2 : W16 m ρ c (Proc.devRef .tc main_v54)
    = mm (F := Ideal) (b1 aggTake (xA m ρ c) (xB m ρ c) (eAB m ρ c) (wAB m ρ c) (bB m ρ c)) (wBA m ρ c) := by
  have h := (W16_arr m ρ c 2).trans (region2_value (V15 m ρ) c)
  have e0 : V15 m ρ c (Pipeline.arrRef spec2 0) = _ := val_v53 m ρ c
  have e1 : V15 m ρ c (Pipeline.arrRef spec2 1) = wBA m ρ c := arg_W15 m ρ c main_arg5 (by decide)
  rw [e0, e1] at h
  exact h

theorem new2 : W22 m ρ c (Proc.devRef .tc main_v79)
    = aggTake (b1 aggTake (xA m ρ c) (xB m ρ c) (eAB m ρ c) (wAB m ρ c) (bB m ρ c)) (wBA m ρ c) (eBA m ρ c) (bA m ρ c) := by
  rw [agg2_new, out2, arg_W16 m ρ c main_arg3 (by decide), arg_W16 m ρ c main_arg6 (by decide)]
  rfl

/-- Node table A of round 1, still there when region 3 reads it. -/
theorem keep_v52_W22 : W22 m ρ c (Proc.devRef .tc main_v52) = W15 m ρ c (Proc.devRef .tc main_v52) :=
  (agg2_keep m ρ c main_v52 (by decide)).trans (region2_keep m ρ c main_v52 (by decide))

theorem out3 : W23 m ρ c (Proc.devRef .tc main_v80)
    = mm (F := Ideal) (a1 aggTake (xA m ρ c) (xB m ρ c) (eBA m ρ c) (wBA m ρ c) (bA m ρ c)) (wAB m ρ c) := by
  have h := (W23_arr m ρ c 2).trans (region3_value (V22 m ρ) c)
  have e0 : V22 m ρ c (Pipeline.arrRef spec3 0) = _ := (keep_v52_W22 m ρ c).trans (val_v52 m ρ c)
  have e1 : V22 m ρ c (Pipeline.arrRef spec3 1) = wAB m ρ c := arg_W22 m ρ c main_arg4 (by decide)
  rw [e0, e1] at h
  exact h

theorem new3 : W29 m ρ c (Proc.devRef .tc main_v105)
    = aggTake (a1 aggTake (xA m ρ c) (xB m ρ c) (eBA m ρ c) (wBA m ρ c) (bA m ρ c)) (wAB m ρ c) (eAB m ρ c) (bB m ρ c) := by
  rw [agg3_new, out3, arg_W23 m ρ c main_arg2 (by decide), arg_W23 m ρ c main_arg7 (by decide)]
  rfl

/-- Node table A after round 2. -/
theorem val_v106 : W30 m ρ c (Proc.devRef .tc main_v106)
    = a2 aggTake (xA m ρ c) (xB m ρ c) (eAB m ρ c) (eBA m ρ c) (wAB m ρ c) (wBA m ρ c) (bA m ρ c) (bB m ρ c) := by
  rw [sum_v106,
    (agg3_keep m ρ c main_v52 (by decide)).trans ((region3_keep m ρ c main_v52 (by decide)).trans
      ((keep_v52_W22 m ρ c).trans (val_v52 m ρ c))),
    (agg3_keep m ρ c main_v79 (by decide)).trans ((region3_keep m ρ c main_v79 (by decide)).trans (new2 m ρ c))]
  rfl

/-- Node table B after round 2. -/
theorem val_v107 : W30 m ρ c (Proc.devRef .tc main_v107)
    = b2 aggTake (xA m ρ c) (xB m ρ c) (eAB m ρ c) (eBA m ρ c) (wAB m ρ c) (wBA m ρ c) (bA m ρ c) (bB m ρ c) := by
  rw [sum_v107,
    (agg3_keep m ρ c main_v53 (by decide)).trans ((region3_keep m ρ c main_v53 (by decide)).trans
      ((agg2_keep m ρ c main_v53 (by decide)).trans ((region2_keep m ρ c main_v53 (by decide)).trans (val_v53 m ρ c)))),
    new3]
  rfl

/-! ## Round 3 -/

theorem out4 : W31 m ρ c (Proc.devRef .tc main_v108)
    = mm (F := Ideal) (b2 aggTake (xA m ρ c) (xB m ρ c) (eAB m ρ c) (eBA m ρ c) (wAB m ρ c) (wBA m ρ c) (bA m ρ c) (bB m ρ c))
        (wBA m ρ c) := by
  have h := (W31_arr m ρ c 2).trans (region4_value (V30 m ρ) c)
  have e0 : V30 m ρ c (Pipeline.arrRef spec4 0) = _ := val_v107 m ρ c
  have e1 : V30 m ρ c (Pipeline.arrRef spec4 1) = wBA m ρ c := arg_W30 m ρ c main_arg5 (by decide)
  rw [e0, e1] at h
  exact h

theorem new4 : W37 m ρ c (Proc.devRef .tc main_v133)
    = aggTake (b2 aggTake (xA m ρ c) (xB m ρ c) (eAB m ρ c) (eBA m ρ c) (wAB m ρ c) (wBA m ρ c) (bA m ρ c) (bB m ρ c))
        (wBA m ρ c) (eBA m ρ c) (bA m ρ c) := by
  rw [agg4_new, out4, arg_W31 m ρ c main_arg3 (by decide), arg_W31 m ρ c main_arg6 (by decide)]
  rfl

theorem keep_v106_W37 : W37 m ρ c (Proc.devRef .tc main_v106) = W30 m ρ c (Proc.devRef .tc main_v106) :=
  (agg4_keep m ρ c main_v106 (by decide)).trans (region4_keep m ρ c main_v106 (by decide))

theorem out5 : W38 m ρ c (Proc.devRef .tc main_v134)
    = mm (F := Ideal) (a2 aggTake (xA m ρ c) (xB m ρ c) (eAB m ρ c) (eBA m ρ c) (wAB m ρ c) (wBA m ρ c) (bA m ρ c) (bB m ρ c))
        (wAB m ρ c) := by
  have h := (W38_arr m ρ c 2).trans (region5_value (V37 m ρ) c)
  have e0 : V37 m ρ c (Pipeline.arrRef spec5 0) = _ := (keep_v106_W37 m ρ c).trans (val_v106 m ρ c)
  have e1 : V37 m ρ c (Pipeline.arrRef spec5 1) = wAB m ρ c := arg_W37 m ρ c main_arg4 (by decide)
  rw [e0, e1] at h
  exact h

theorem new5 : W44 m ρ c (Proc.devRef .tc main_v159)
    = aggTake (a2 aggTake (xA m ρ c) (xB m ρ c) (eAB m ρ c) (eBA m ρ c) (wAB m ρ c) (wBA m ρ c) (bA m ρ c) (bB m ρ c))
        (wAB m ρ c) (eAB m ρ c) (bB m ρ c) := by
  rw [agg5_new, out5, arg_W38 m ρ c main_arg2 (by decide), arg_W38 m ρ c main_arg7 (by decide)]
  rfl

/-! ## The results -/

/-- Result 0: node table A after the three rounds. -/
theorem kernel_v160 : W45 m ρ c (Proc.devRef .tc main_v160)
    = a3 aggTake (xA m ρ c) (xB m ρ c) (eAB m ρ c) (eBA m ρ c) (wAB m ρ c) (wBA m ρ c) (bA m ρ c) (bB m ρ c) := by
  rw [sum_v160,
    (agg5_keep m ρ c main_v106 (by decide)).trans ((region5_keep m ρ c main_v106 (by decide)).trans
      ((keep_v106_W37 m ρ c).trans (val_v106 m ρ c))),
    (agg5_keep m ρ c main_v133 (by decide)).trans ((region5_keep m ρ c main_v133 (by decide)).trans (new4 m ρ c))]
  rfl

/-- Result 1: node table B after the three rounds. -/
theorem kernel_v161 : W45 m ρ c (Proc.devRef .tc main_v161)
    = b3 aggTake (xA m ρ c) (xB m ρ c) (eAB m ρ c) (eBA m ρ c) (wAB m ρ c) (wBA m ρ c) (bA m ρ c) (bB m ρ c) := by
  rw [sum_v161,
    (agg5_keep m ρ c main_v107 (by decide)).trans ((region5_keep m ρ c main_v107 (by decide)).trans
      ((agg4_keep m ρ c main_v107 (by decide)).trans ((region4_keep m ρ c main_v107 (by decide)).trans (val_v107 m ρ c)))),
    new5]
  rfl

end Cert.Mp

end
-- ==== Proof.RefValue.lean ====
/-
  The reference's two results as the three rounds of message passing with plain indexing.

  The reference's run states each result as the composed term of its 276 host operations over the eight arguments. That term
  is, operation for operation, the specification's `a3 aggIndex …` (result 0, node table A) and `b3 aggIndex …` (result 1, node
  table B): the whole matrix product, the normalised gather, and the shared tail `meanRelu`, three times over. The two are
  compared as terms; nothing is evaluated.
-/
import proofs.«400287_j68238440398870_1_alg».proof.Proof.RefRun
import proofs.«400287_j68238440398870_1_alg».proof.Proof.Gen.KernelIdeal
import proofs.«400287_j68238440398870_1_alg».proof.Proof.Spec

set_option maxRecDepth 16384

noncomputable section

namespace Cert.Mp

open Idealize.ShloMosaic Idealize.SL.Sem

variable {F : FTy → Type} [FloatOps F]
variable (m : (ℓ : Loc Cert.ReferenceIdeal.nD Cert.ReferenceIdeal.τ Cert.ReferenceIdeal.sig) → Buf (Elt F) ℓ) (c : Dev Cert.ReferenceIdeal.nD)

/-- Result 0 of the reference: node table A after the three rounds. -/
theorem ref_out0 : Cert.ReferenceIdeal.RunP.res_main_v196 m c
    = a3 aggIndex
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6))
        (m ((c.tc : Thread Cert.ReferenceIdeal.nD Cert.ReferenceIdeal.τ).loc Cert.ReferenceIdeal.main_arg7)) := by
  unfold Cert.ReferenceIdeal.RunP.res_main_v196 a3 a2 b2 a1 b1 aggIndex
  rfl

/-- Result 1 of the reference: node table B after the three rounds. -/
theorem ref_out1 : Cert.ReferenceIdeal.RunP.res_main_v197 m c
    = b3 aggIndex
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6))
        (m ((c.tc : Thread Cert.ReferenceIdeal.nD Cert.ReferenceIdeal.τ).loc Cert.ReferenceIdeal.main_arg7)) := by
  unfold Cert.ReferenceIdeal.RunP.res_main_v197 b3 a2 b2 a1 b1 aggIndex
  rfl

end Cert.Mp

end
-- ==== Proof.LibTakeFill.lean ====
/-
  jnp.take in its fill mode, on the host: the bounds mask, and when it is all ones.

  jnp.take(table, idx, axis=0) first counts a negative index from the end (n is added to a word below zero), then
  gathers the rows at the clamped indices, and last keeps a gathered row only where the normalised index lies in
  [0, n - 1], writing NaN elsewhere. The mask is a reduction by `and` of the two comparisons over a unit axis.
  Plain indexing table[idx] does the first two steps and no third. So the two agree exactly where the mask is all ones,
  and the mask is all ones when every index lies in [-n, n) read as a signed word: a word in [0, n) is kept as it is,
  a word in [-n, 0) has n added without wrapping and lands in [0, n).

  Here: a reduction by `and` of an array of ones from one is one everywhere; a select under a mask of ones is its first
  branch; and the arithmetic of the normalised index for a table of n rows, n below 2^31.
-/
import Idealize.ShloMosaic.PureOps
import Idealize.ShloMosaic.PureOps.Reduce
import Idealize.ShloMosaic.Lib.StableHlo.Predicate

namespace Cert.TakeFill

open Idealize.ShloMosaic

/-! ## A mask of ones -/

/-- A left fold by `and` from one over words that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_ones f hf l

/-- `jnp.all` along any axes of an array of ones, from the initial value one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) :
    Host.reduce IntOp.andi x init h hu = fun _ => 1#1 := by
  funext j
  rw [Host.reduce_eq_foldl, hinit]
  exact foldl_andi_ones x hx _

/-- A select under a mask of ones keeps its first branch everywhere. -/
theorem select_ones {s : Shape} {α : Type} (c : IVec s 1) (a b : s.Idx → α) (hc : ∀ i, c i = 1#1) : select c a b = a := by
  funext i
  show Scalar.select (c i) (a i) (b i) = a i
  rw [hc i]
  rfl

/-! ## The normalised index -/

/-- A one-bit word made from a Boolean is one exactly when the Boolean holds. -/
theorem ofBool_eq_one (b : Bool) : BitVec.ofBool b = 1#1 ↔ b = true := by cases b <;> decide

/-- The signed comparisons, read back as comparisons of the words' signed values. -/
theorem cmpi_sge_iff (a b : BitVec 32) : IntOp.cmpi .sge a b = 1#1 ↔ b.toInt ≤ a.toInt := by
  unfold IntOp.cmpi; rw [ofBool_eq_one, BitVec.sle_iff_toInt_le]
theorem cmpi_sle_iff (a b : BitVec 32) : IntOp.cmpi .sle a b = 1#1 ↔ a.toInt ≤ b.toInt := by
  unfold IntOp.cmpi; rw [ofBool_eq_one, BitVec.sle_iff_toInt_le]
theorem cmpi_slt_iff (a b : BitVec 32) : IntOp.cmpi .slt a b = 1#1 ↔ a.toInt < b.toInt := by
  unfold IntOp.cmpi; rw [ofBool_eq_one, BitVec.slt_iff_toInt_lt]

/-- jnp's index normalisation for a table of `n` rows (`n` below 2^31): a word whose signed value lies in [-n, n), with
    `n` added when it is negative, lies in [0, n - 1]. The two conclusions are the two comparisons of jnp.take's bounds mask. -/
theorem norm_in_range (n : Nat) (hn0 : 0 < n) (hn : n < 2 ^ 31) (w : BitVec 32)
    (hlo : -(n : Int) ≤ w.toInt) (hhi : w.toInt < (n : Int)) :
    IntOp.cmpi .sge (Scalar.select (IntOp.cmpi .slt w 0#32) (IntOp.addi w (BitVec.ofNat 32 n)) w) 0#32 = 1#1
    ∧ IntOp.cmpi .sle (Scalar.select (IntOp.cmpi .slt w 0#32) (IntOp.addi w (BitVec.ofNat 32 n)) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  have h0I : (0#32 : BitVec 32).toInt = 0 := by decide
  rw [cmpi_sge_iff, cmpi_sle_iff, h0I, hn1I]
  by_cases hneg : w.toInt < 0
  · have hc : IntOp.cmpi .slt w 0#32 = 1#1 := (cmpi_slt_iff _ _).2 (by rw [h0I]; exact hneg)
    have hadd : (IntOp.addi w (BitVec.ofNat 32 n)).toInt = w.toInt + n := by
      show (w + BitVec.ofNat 32 n).toInt = _
      rw [BitVec.toInt_add, hnI]
      apply Int.bmod_eq_of_le <;> omega
    rw [hc]
    show 0 ≤ (IntOp.addi w (BitVec.ofNat 32 n)).toInt ∧ (IntOp.addi w (BitVec.ofNat 32 n)).toInt ≤ _
    rw [hadd]; omega
  · have hc : IntOp.cmpi .slt w 0#32 ≠ 1#1 := fun h => hneg (by have := (cmpi_slt_iff _ _).1 h; rwa [h0I] at this)
    have hsel : Scalar.select (IntOp.cmpi .slt w 0#32) (IntOp.addi w (BitVec.ofNat 32 n)) w = w := if_neg hc
    rw [hsel]; omega

end Cert.TakeFill
-- ==== Proof.TakeEq.lean ====
/-
  jnp.take in its fill mode against plain indexing, for a table of 100000 rows.

  Both normalise an index the same way (a negative word has 100000 added) and gather the same rows; jnp.take then keeps a
  gathered row only where the normalised index lies in [0, 99999]. If every index, read as a signed word, lies in
  [-100000, 100000), every normalised index lies in [0, 99999], the mask is one at every edge, and the two gathers are one
  array. The rounds of message passing built on either gather are then equal as well.
-/
import proofs.«400287_j68238440398870_1_alg».proof.Proof.Spec
import proofs.«400287_j68238440398870_1_alg».proof.Proof.LibTakeFill

noncomputable section

namespace Cert.Mp

open Idealize.ShloMosaic Cert.KernelIdeal Cert.KernelIdeal.Facts₀ Cert.KernelIdeal.Facts

variable {F : FTy → Type} [FloatOps F] [Cert.KernelIdeal.Facts]

/-- The normalised index at an edge. -/
theorem normIdx_apply (idx : IVec S500000 32) (e : S500000.Idx) :
    normIdx idx e = Scalar.select (IntOp.cmpi .slt (idx e) 0#32) (IntOp.addi (idx e) (BitVec.ofNat 32 100000)) (idx e) := rfl

/-- In range, the bounds mask is one at every edge. -/
theorem inMask_ones (idx : IVec S500000 32) (h : InRange idx) : inMask idx = fun _ => 1#1 := by
  unfold inMask
  refine TakeFill.reduce_andi_ones _ _ _ _ (fun i => ?_) (fun _ => rfl)
  obtain ⟨e, he⟩ : ∃ e, colIdx idx i = normIdx idx e := ⟨_, rfl⟩
  obtain ⟨h1, h2⟩ := TakeFill.norm_in_range 100000 (by decide) (by decide) (idx e)
    (by have := (h e).1; omega) (by have := (h e).2; omega)
  have h2' : IntOp.cmpi .sle (Scalar.select (IntOp.cmpi .slt (idx e) 0#32) (IntOp.addi (idx e) (BitVec.ofNat 32 100000)) (idx e))
      99999#32 = 1#1 := h2
  show IntOp.andi (IntOp.cmpi .sge (colIdx idx i) 0#32) (IntOp.cmpi .sle (colIdx idx i) 99999#32) = 1#1
  rw [he, normIdx_apply, h1, h2']
  decide

/-- In range, jnp.take's rows are the indexed rows. -/
theorem takeRows_eq_gatherRows (x : FVec F S100000x128 .f32) (idx : IVec S500000 32) (h : InRange idx) :
    takeRows x idx = gatherRows x idx := by
  unfold takeRows
  refine TakeFill.select_ones _ _ _ (fun i => ?_)
  rw [inMask_ones idx h]
  rfl

/-- In range, one direction of one round is the same through either gather. -/
theorem aggTake_eq_aggIndex (x : FVec F S100000x128 .f32) (w : FVec F S128x128 .f32) (ei : IVec S2x500000 32) (bias : FVec F S128 .f32)
    (h : InRange (srcIdx ei)) : aggTake x w ei bias = aggIndex x w ei bias := by
  unfold aggTake aggIndex
  rw [takeRows_eq_gatherRows _ _ h]

variable (xa xb : FVec F S100000x128 .f32) (eab eba : IVec S2x500000 32) (wab wba : FVec F S128x128 .f32) (ba bb : FVec F S128 .f32)

/-- With both edge tables' sources in range, node table A after the three rounds is the same through either gather. -/
theorem a3_take_eq_index (hab : InRange (srcIdx eab)) (hba : InRange (srcIdx eba)) :
    a3 aggTake xa xb eab eba wab wba ba bb = a3 aggIndex xa xb eab eba wab wba ba bb := by
  simp only [a3, a2, b2, a1, b1, fun x w b => aggTake_eq_aggIndex (F := F) x w eab b hab,
    fun x w b => aggTake_eq_aggIndex (F := F) x w eba b hba]

/-- And so is node table B. -/
theorem b3_take_eq_index (hab : InRange (srcIdx eab)) (hba : InRange (srcIdx eba)) :
    b3 aggTake xa xb eab eba wab wba ba bb = b3 aggIndex xa xb eab eba wab wba ba bb := by
  simp only [b3, a2, b2, a1, b1, fun x w b => aggTake_eq_aggIndex (F := F) x w eab b hab,
    fun x w b => aggTake_eq_aggIndex (F := F) x w eba b hba]

end Cert.Mp

end
-- ==== Proof.PreDecode.lean ====
import proofs.«400287_j68238440398870_1_alg».proof.Defs
import proofs.«400287_j68238440398870_1_alg».proof.Proof.Gen.KernelIdeal
import proofs.«400287_j68238440398870_1_alg».proof.Proof.Gen.Pre_finite_inputs
import proofs.«400287_j68238440398870_1_alg».proof.Proof.Spec
import proofs.«400287_j68238440398870_1_alg».proof.Proof.LibTakeFill
import Idealize.ShloMosaic.Lib.ReduceAll

/-
  The index ranges, read out of the precondition.

  The precondition is a conjunction of one-bit words, each a reduction by `and` over a whole array, stated to be one.
  Its last two conjuncts test row 0 of each of the two edge tables: for every edge, -100000 ≤ index (the word
  4294867296 is -100000 read signed) and index < 100000. A reduction by `and` that is one met a one at every
  element, an `and` of two one-bit words is one exactly when both are, and a signed comparison word is one exactly
  when the signed values compare so. Every step is taken at one symbolic edge.
-/

noncomputable section

namespace Cert.Mp

open Idealize.ShloMosaic Idealize.SL.Sem

/-- One range test read back: if the reduction by `and` of (index ≥ -100000) and (index < 100000) over all edges is
    one, every index lies in [-100000, 100000) as a signed word. -/
private theorem range_of_all_one (idx : IVec Cert.Pre_finite_inputs.S500000 32) (j : Cert.Pre_finite_inputs.S_.Idx)
    (h : Host.reduce IntOp.andi
        (andi
          (cmpi .sge idx (broadcastInDim Cert.Pre_finite_inputs.S500000 ![] Cert.Pre_finite_inputs.Facts.bcast_S_S500000
            (constantI Cert.Pre_finite_inputs.S_ 32 4294867296#32)))
          (cmpi .slt idx (broadcastInDim Cert.Pre_finite_inputs.S500000 ![] Cert.Pre_finite_inputs.Facts.bcast_S_S500000
            (constantI Cert.Pre_finite_inputs.S_ 32 100000#32))))
        (constantI Cert.Pre_finite_inputs.S_ 1 1#1)
        Cert.Pre_finite_inputs.Facts.reducesTo_S500000_S_d0 Cert.Pre_finite_inputs.Facts.h_S_ j = 1#1) :
    ∀ e, (-100000 : Int) ≤ (idx e).toInt ∧ (idx e).toInt < 100000 := by
  intro e
  -- the rank-0 result shape has one index, so every edge reduces into it
  haveI : Subsingleton Cert.Pre_finite_inputs.S_.Idx := ⟨fun a b => funext fun d => d.elim0⟩
  have he := Host.reduce_andi_all _ _ _ _ j h e
  -- at the edge e the two broadcasts read their constants
  have he' : IntOp.andi (IntOp.cmpi .sge (idx e) 4294867296#32) (IntOp.cmpi .slt (idx e) 100000#32) = 1#1 := he
  obtain ⟨h1, h2⟩ := IntOp.andi_eq_one.1 he'
  have hlo : (4294867296#32 : BitVec 32).toInt = -100000 := by decide
  have hhi : (100000#32 : BitVec 32).toInt = 100000 := by decide
  rw [Cert.TakeFill.cmpi_sge_iff, hlo] at h1
  rw [Cert.TakeFill.cmpi_slt_iff, hhi] at h2
  exact ⟨h1, h2⟩

theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    InRange (srcIdx (m ((c.tc : Thread Cert.KernelIdeal.nD Cert.KernelIdeal.τ).loc Cert.KernelIdeal.main_arg2)))
    ∧ InRange (srcIdx (m ((c.tc : Thread Cert.KernelIdeal.nD Cert.KernelIdeal.τ).loc Cert.KernelIdeal.main_arg3))) := by
  -- the precondition at the one index of its rank-0 result
  have h0 := congrFun (h c) (fun a => a.elim0)
  unfold Cert.Pre_finite_inputs.fn Cert.Pre_finite_inputs.fn_part1 Cert.Pre_finite_inputs.fn_part2 at h0
  dsimp only at h0
  -- the conjunction is ((floats ∧ test of table 2) ∧ test of table 3)
  obtain ⟨h01, h3⟩ := IntOp.andi_eq_one.1 h0
  obtain ⟨-, h2⟩ := IntOp.andi_eq_one.1 h01
  exact ⟨range_of_all_one _ _ h2, range_of_all_one _ _ h3⟩

end Cert.Mp

end
-- ==== Proof.lean ====
/-
  Three rounds of message passing between two node tables (gather the neighbours' rows of a matrix product, average them per
  destination node, add a bias, rectify, add to the table), the matrix products computed tile by tile on the matrix unit and the
  gathers written with jnp.take, against the same rounds written with a whole matrix product and plain indexing.

  At the ideal values a tile's product into a zero accumulator is that tile of the whole product (a change of float format is
  the identity, and both are the sum over the contracted axis of the products of the entries), so each region leaves the whole
  product in its output array. jnp.take differs from plain indexing only in replacing by NaN the rows whose normalised index
  falls outside the table; under the precondition that every edge's source index, read as a signed word, lies in
  [-100000, 100000) (the range in which indexing a table of 100000 rows is in bounds) no row is replaced. Everything else, the
  segment sums included, is the same sequence of host operations in both programs and is carried as one function.
  The frames of the two kernel programs are the generated ones; the reference's frame is its run with the results dropped; the
  idealization rewrote nothing, so `preserves` is trivial.
-/
import proofs.«400287_j68238440398870_1_alg».proof.Defs
import proofs.«400287_j68238440398870_1_alg».proof.Proof.Gen.Kernel
import proofs.«400287_j68238440398870_1_alg».proof.Proof.Gen.Kernel.Frame
import proofs.«400287_j68238440398870_1_alg».proof.Proof.Gen.KernelIdeal
import proofs.«400287_j68238440398870_1_alg».proof.Proof.Gen.KernelIdeal.Frame
import proofs.«400287_j68238440398870_1_alg».proof.Proof.Gen.ReferenceIdeal
import proofs.«400287_j68238440398870_1_alg».proof.Proof.Gen.Pre_finite_inputs
import proofs.«400287_j68238440398870_1_alg».proof.Proof.KernelIdealRun
import proofs.«400287_j68238440398870_1_alg».proof.Proof.RefRun
import proofs.«400287_j68238440398870_1_alg».proof.Proof.FoldChain
import proofs.«400287_j68238440398870_1_alg».proof.Proof.RefValue
import proofs.«400287_j68238440398870_1_alg».proof.Proof.TakeEq
import proofs.«400287_j68238440398870_1_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.RunP.run (F := Ideal) m ρ)

/-- The idealization rewrote no operation. -/
theorem preserves : Cert.preserves_Kernel_KernelIdeal := trivial

/-- Both idealized programs end with the two node tables after three rounds; the kernel's rounds gather with jnp.take, the
    reference's with plain indexing, and in the precondition's index range the two gathers are one array. -/
theorem algebraic : Cert.algebraic_KernelIdeal_ReferenceIdeal := by
  intro m ρ m' ρ' hpre hagree
  refine ⟨fun c => Cert.KernelIdeal.Gen.W45 m ρ c (Proc.devRef .tc Cert.KernelIdeal.main_v160),
    fun c => Cert.KernelIdeal.Gen.W45 m ρ c (Proc.devRef .tc Cert.KernelIdeal.main_v161),
    Cert.KernelIdeal.GenRun.run_results m ρ, ?_⟩
  refine (θ_run Cert.ReferenceIdeal.defs _ _).mono (fun r h c => ?_) (Cert.ReferenceIdeal.RunP.run (F := Ideal) m' ρ')
  obtain ⟨h0, h1, hargs⟩ := h c
  obtain ⟨hab, hba⟩ := Cert.Mp.inRange_of_pre m hpre c
  obtain ⟨e0, e1, e2, e3, e4, e5, e6, e7⟩ := hagree c
  refine ⟨h0.trans ?_, h1.trans ?_, hargs⟩
  · rw [Cert.Mp.ref_out0, e0, e1, e2, e3, e4, e5, e6, e7]
    exact (Cert.Mp.a3_take_eq_index _ _ _ _ _ _ _ _ hab hba).symm.trans (Cert.Mp.kernel_v160 m ρ c).symm
  · rw [Cert.Mp.ref_out1, e0, e1, e2, e3, e4, e5, e6, e7]
    exact (Cert.Mp.b3_take_eq_index _ _ _ _ _ _ _ _ hab hba).symm.trans (Cert.Mp.kernel_v161 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
